-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1 .f32) (main_arg4 : FVec F S128x128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S1 : Shape := ⟨1, ![1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S8x128 : Shape := ⟨2, ![8, 128]⟩
abbrev S10000x128 : Shape := ⟨2, ![10000, 128]⟩

abbrev nBuf : Space → Nat
  | .hbm => 51
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S8x128, .f32⟩
  | .hbm, ⟨32, _⟩ => ⟨S8x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S1_S_ : S1.ShapeCasts S_
  shapeCasts_S128_S1x128 : S128.ShapeCasts S1x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  broadcasts_S1x128_S8x128 : S1x128.Broadcasts S8x128
  slices_S8x128_S1x128_0_0 : S8x128.Slices ![0, 0] S1x128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S8x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S8x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v16_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1 : Shape := ⟨1, ![1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1x1, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KBody0.lean ====
/-
  The first kernel region (first linear layer with the running column sums), at any float instance: what each
  window's staging buffer and the two accumulators hold after the body at a grid point, and that the body,
  run at a point on the buffers the pipeline hands it, leaves exactly that.

  The region walks the 100000 rows in ten blocks of 10000. Window 0 stages the block of the layer's input,
  windows 1 and 2 the whole weight matrix and the bias row; window 3 is the block of the layer's output;
  windows 4 and 5 are the 8 × 128 arrays of column sums and of column sums of squares, written back only at
  the last point. Two 8 × 128 scratch buffers carry the running sums from point to point: the body sets them
  to zero at the first point, adds the block's column sums (of the output, and of its squares) at every
  point, and copies them into windows 4 and 5 at the last point.
-/
import proofs.«114483_j81544249081987_1_alg».proof.Proof.Gen.Kernel.Launch
import proofs.«114483_j81544249081987_1_alg».proof.Proof.Gen.Kernel.Skeleton
import proofs.«114483_j81544249081987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the core's buffers when the region is entered: a parameter. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: from zero at the first point, each point adds its
    block's column sums, and column sums of squares, to what the point before left. -/
def acc0 (c : Dev nD) : (n : ℕ) → n < cfg0.N → Vec F S8x128 .f32 × Vec F S8x128 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (hn : 0 < cfg0.N) :
    acc0 V c 0 hn = (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

/-- The two scratch accumulators, as whole memrefs. -/
abbrev scM0_0 : Memref sig .tc .vmem S8x128 .f32 := Memref.whole cc0_scratch0
abbrev scM0_1 : Memref sig .tc .vmem S8x128 .f32 := Memref.whole cc0_scratch1

/-- The second region's staging buffers, scoped buffers this region never touches: each whole, at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the region keeps between points: before the first point the scoped buffers it does not stage at
    anything and the generator register; afterwards the same with the two accumulators at what the point
    before left in them. (A definition by recursion on the position; its two equations are stated below.) -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ rest0 (F := F) c ∗ (∃ r, prngReg c r)) := rfl

/-- The region's proof data: the arrays as found; after the body the three inputs still at their blocks, the
    output block at the layer's value of the input blocks, the two sum windows at the accumulators; the
    invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay3 (iblk0 V c 0 t) (iblk0 V c 1 t) (iblk0 V c 2 t) := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

/-! ## The body's two branches, decided over the grid -/

/-- The reset's condition: the grid coordinate is zero. -/
abbrev condR (i : grid0.Coords) : Prop := (Scalar.cmpi .ne (Scalar.extui (Scalar.cmpi .eq (BitVec.ofNat 32 (i 0).val) 0#32)) 0#32) = 1#1
/-- It holds at the first point only. -/
theorem hcondR : ∀ t : Fin cfg0.N, condR (grid0.coords t) ↔ t.val = 0 :=
  (by decide +kernel : ∀ t : Fin grid0.N, condR (grid0.coords t) ↔ t.val = 0)
/-- The copy-out's condition: the grid coordinate is nine. -/
abbrev condC (i : grid0.Coords) : Prop := k0_cond2 i = 1#1
/-- It holds at the last point only. -/
theorem hcondC : ∀ t : Fin cfg0.N, condC (grid0.coords t) ↔ t.val = 9 :=
  (by decide +kernel : ∀ t : Fin grid0.N, condC (grid0.coords t) ↔ t.val = 9)

/-! ## Whole-buffer loads and stores -/

/-- The zero offsets of a rank-two rectangle, as a constant function. -/
theorem hz2 : (![0, 0] : Fin 2 → ℕ) = fun _ => 0 := by
  funext a; fin_cases a <;> rfl

/-- After a store of `w` over the whole shape, whatever was stored before, the buffer reads `w`. -/
theorem read_store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load over the whole shape of a whole buffer whose contents read `X` is `X`. -/
theorem readAt_whole {S : Shape} {e : EltTy} (m : Memref sig .tc .vmem S e) (hm : m.IsWhole)
    {off : Fin S.rank → ℕ} (hz : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]

/-! ## The body on whole buffers, case by case -/

set_option maxHeartbeats 1000000 in
/-- The body at the first point (the reset taken, the copy-out not): on whole buffers, the three inputs at `x0 x1 x2`, the output block and the two accumulators at anything, the two sum windows at `y5 y6`, it leaves the inputs and the sum windows as they were, the output block at the layer's value, and each accumulator at its update of the zero vector: the accumulator is read back after the reset, so what is added to is zero. -/
theorem run0_A (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : condR i) (hC : ¬condC i)
    (x0 : Vec F S10000x128 .f32) (x1 : Vec F S128x128 .f32) (x2 : Vec F S1x128 .f32) (y5 y6 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare y5 ∗ owns (c : Thread nD τ) arg6 fullShare y6 ∗ owns (c : Thread nD τ) arg7 fullShare (k0_pay4 x0 x1 x2 (k0_pay1 (F := F))) ∗ owns (c : Thread nD τ) arg8 fullShare (k0_pay5 x0 x1 x2 (k0_pay2 (F := F)))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg5.eq_unread hf5; obtain rfl := harg6.eq_unread hf6
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [read_store_whole _ _ hz2, readAt_whole _ harg1 hz2, readAt_whole _ harg2 hz2, readAt_whole _ harg3 hz2]
    sl_unfold_words
    rw [View.readCov_unit_zero (S := S8x128) _ hz2]
  · iexists _; isplitr; swap; · iexact H8
    ipureintro
    rw [read_store_whole _ _ hz2, readAt_whole _ harg1 hz2, readAt_whole _ harg2 hz2, readAt_whole _ harg3 hz2]
    sl_unfold_words
    rw [View.readCov_unit_zero (S := S8x128) _ hz2]

set_option maxHeartbeats 1000000 in
/-- The body at a middle point (neither branch taken): the accumulators come in at `s7 s8` and go out at their updates by the block; the sum windows are handed back as they were. -/
theorem run0_B (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : ¬condR i) (hC : ¬condC i)
    (x0 : Vec F S10000x128 .f32) (x1 : Vec F S128x128 .f32) (x2 : Vec F S1x128 .f32) (y5 y6 s7 s8 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare y5 ∗ owns (c : Thread nD τ) arg6 fullShare y6 ∗ owns (c : Thread nD τ) arg7 fullShare (k0_pay4 x0 x1 x2 s7) ∗ owns (c : Thread nD τ) arg8 fullShare (k0_pay5 x0 x1 x2 s8)) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg5.eq_unread hf5; obtain rfl := harg6.eq_unread hf6; obtain rfl := harg7.eq_unread hf7; obtain rfl := harg8.eq_unread hf8
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [read_store_whole _ _ hz2, readAt_whole _ harg1 hz2, readAt_whole _ harg2 hz2, readAt_whole _ harg3 hz2, readAt_whole _ harg7 hz2]
  · iexists _; isplitr; swap; · iexact H8
    ipureintro
    rw [read_store_whole _ _ hz2, readAt_whole _ harg1 hz2, readAt_whole _ harg2 hz2, readAt_whole _ harg3 hz2, readAt_whole _ harg8 hz2]

set_option maxHeartbeats 1000000 in
/-- The body at the last point (the copy-out taken, the reset not): as at a middle point, and then each sum window receives the accumulator's new contents, read back after the update. -/
theorem run0_C (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : ¬condR i) (hC : condC i)
    (x0 : Vec F S10000x128 .f32) (x1 : Vec F S128x128 .f32) (x2 : Vec F S1x128 .f32) (s7 s8 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare (k0_pay4 x0 x1 x2 s7) ∗ owns (c : Thread nD τ) arg6 fullShare (k0_pay5 x0 x1 x2 s8) ∗ owns (c : Thread nD τ) arg7 fullShare (k0_pay4 x0 x1 x2 s7) ∗ owns (c : Thread nD τ) arg8 fullShare (k0_pay5 x0 x1 x2 s8)) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; swap; · iexact H5
    ipureintro
    rw [read_store_whole _ _ hz2]
    sl_unfold_words
    rw [View.readCov_unit_zero (S := S8x128) _ hz2, readAt_whole _ harg1 hz2, readAt_whole _ harg2 hz2, readAt_whole _ harg3 hz2, readAt_whole _ harg7 hz2]
  isplitl [H6]
  · iexists _; isplitr; swap; · iexact H6
    ipureintro
    rw [read_store_whole _ _ hz2]
    sl_unfold_words
    rw [View.readCov_unit_zero (S := S8x128) _ hz2, readAt_whole _ harg1 hz2, readAt_whole _ harg2 hz2, readAt_whole _ harg3 hz2, readAt_whole _ harg8 hz2]
  isplitl [H7]
  · iexists _; isplitr; swap; · iexact H7
    ipureintro
    sl_unfold_words
    rw [read_store_whole _ _ hz2, readAt_whole _ harg1 hz2, readAt_whole _ harg2 hz2, readAt_whole _ harg3 hz2, readAt_whole _ harg7 hz2]
  · iexists _; isplitr; swap; · iexact H8
    ipureintro
    sl_unfold_words
    rw [read_store_whole _ _ hz2, readAt_whole _ harg1 hz2, readAt_whole _ harg2 hz2, readAt_whole _ harg3 hz2, readAt_whole _ harg8 hz2]

/-! ## Where the windows are live and where the two sum windows rest -/

/-- The three inputs and the output block are stored into, or read, at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point nothing is stored into either sum window, and neither is written back. -/
theorem idleAt0_4 : ∀ t : Fin cfg0.N, ¬condC (grid0.coords t) → cfg0.idle 4 (grid0.coords t) = true := by decide +kernel
theorem idleAt0_5 : ∀ t : Fin cfg0.N, ¬condC (grid0.coords t) → cfg0.idle 5 (grid0.coords t) = true := by decide +kernel
theorem noFlush0_4 : ∀ t : Fin cfg0.N, ¬condC (grid0.coords t) → (cfg0.win 4).flush t = false := by decide +kernel
theorem noFlush0_5 : ∀ t : Fin cfg0.N, ¬condC (grid0.coords t) → (cfg0.win 5).flush t = false := by decide +kernel
/-- At the last point both are stored into. -/
theorem liveAt0_4 : ∀ t : Fin cfg0.N, condC (grid0.coords t) → cfg0.idle 4 (grid0.coords t) = false := by decide +kernel
theorem liveAt0_5 : ∀ t : Fin cfg0.N, condC (grid0.coords t) → cfg0.idle 5 (grid0.coords t) = false := by decide +kernel

/-! ## The accumulators and the invariant, point by point -/

/-- At the first point the accumulators are the block's sums added to zero. -/
theorem acc0_first_1 (c : Dev nD) (t : Fin cfg0.N) (ht : t.val = 0) :
    (acc0 V c t.val t.isLt).1 = k0_pay4 (iblk0 V c 0 t) (iblk0 V c 1 t) (iblk0 V c 2 t) (k0_pay1 (F := F)) := by
  obtain ⟨n, hn⟩ := t
  cases n with
  | zero => exact congrArg Prod.fst (acc0_zero V c hn)
  | succ n => exact absurd ht (Nat.succ_ne_zero n)
theorem acc0_first_2 (c : Dev nD) (t : Fin cfg0.N) (ht : t.val = 0) :
    (acc0 V c t.val t.isLt).2 = k0_pay5 (iblk0 V c 0 t) (iblk0 V c 1 t) (iblk0 V c 2 t) (k0_pay2 (F := F)) := by
  obtain ⟨n, hn⟩ := t
  cases n with
  | zero => exact congrArg Prod.snd (acc0_zero V c hn)
  | succ n => exact absurd ht (Nat.succ_ne_zero n)

/-- At a later point they are the block's sums added to what the point before left. -/
theorem acc0_later_1 (c : Dev nD) (t : Fin cfg0.N) (ht : t.val ≠ 0) :
    (acc0 V c t.val t.isLt).1 = k0_pay4 (iblk0 V c 0 t) (iblk0 V c 1 t) (iblk0 V c 2 t)
      (acc0 V c (t.val - 1) (Nat.lt_of_le_of_lt (Nat.sub_le _ _) t.isLt)).1 := by
  obtain ⟨n, hn⟩ := t
  cases n with
  | zero => exact absurd rfl ht
  | succ n => exact congrArg Prod.fst (acc0_succ V c n hn)
theorem acc0_later_2 (c : Dev nD) (t : Fin cfg0.N) (ht : t.val ≠ 0) :
    (acc0 V c t.val t.isLt).2 = k0_pay5 (iblk0 V c 0 t) (iblk0 V c 1 t) (iblk0 V c 2 t)
      (acc0 V c (t.val - 1) (Nat.lt_of_le_of_lt (Nat.sub_le _ _) t.isLt)).2 := by
  obtain ⟨n, hn⟩ := t
  cases n with
  | zero => exact absurd rfl ht
  | succ n => exact congrArg Prod.snd (acc0_succ V c n hn)

/-- Before any point but the first the invariant holds the accumulators at what the point before left. -/
theorem PhiS0_later (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Separating conjunction regrouped: the last conjunct of a nested group moved out beside a fourth. -/
theorem sep_regroup {M : Type} [URA M] (A B R G : sProp M) :
    (iprop((A ∗ B ∗ R) ∗ G) : sProp M) = iprop(A ∗ B ∗ R ∗ G) := by
  have h₁ : iprop((A ∗ B ∗ R) ∗ G) ⊢ (iprop(A ∗ B ∗ R ∗ G) : sProp M) := by
    iintro ⟨⟨HA, HB, HR⟩, HG⟩
    isplitl [HA]; · iexact HA
    isplitl [HB]; · iexact HB
    isplitl [HR]; · iexact HR
    iexact HG
  have h₂ : iprop(A ∗ B ∗ R ∗ G) ⊢ (iprop((A ∗ B ∗ R) ∗ G) : sProp M) := by
    iintro ⟨HA, HB, HR, HG⟩
    isplitr [HG]; swap; · iexact HG
    isplitl [HA]; · iexact HA
    isplitl [HB]; · iexact HB
    iexact HR
  exact BI.equiv_iff.mp ⟨h₁, h₂⟩

/-- What the region is handed, with the two accumulators set apart as whole buffers at some contents. -/
theorem PhiA0_eq (c : Dev nD) :
    (Pipeline.ΦA spec0 c : sProp 𝕄)
      = iprop((∃ d, owns (c : Thread nD τ) scM0_0 fullShare d) ∗ (∃ d, owns (c : Thread nD τ) scM0_1 fullShare d)
          ∗ rest0 (F := F) c ∗ (∃ r, prngReg c r)) := by
  unfold Pipeline.ΦA rest0; rw [scopedRest0_eq]; simp only [scM0_0, scM0_1, owns_whole]
  exact sep_regroup _ _ _ _

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input window's current buffer holds its block at every point: where it was fetched by the fetch, and where it
    was not its block index has not moved since the point before, whose block the body left in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- A window the body stores into at the point is left at the proof data's contents. -/
theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

/-! ## The body obligation at a generic point -/

/-- What the body is called with at point `t`: the invariant, what the core owes, and each window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the position decides the case. At the first point the
    invariant is what the launch hands over, so the accumulators come at anything and leave at the first block's sums
    added to zero; later they come at what the point before left and leave at the next partial sums. The two sum windows
    rest untouched until the last point, where they receive the accumulators. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_live V c 0 t (liveAt0_0 t), leaves0_live V c 1 t (liveAt0_1 t), leaves0_live V c 2 t (liveAt0_2 t),
    leaves0_live V c 3 t (liveAt0_3 t), after0_0, after0_1, after0_2, after0_3]
  rw [PhiS0_castSucc]
  have hN : t.val < 10 := lt_of_lt_of_eq t.isLt (show cfg0.N = 10 from N_0)
  by_cases h0 : t.val = 0
  · have hR : condR (grid0.coords t) := (hcondR t).mpr h0
    have hC : ¬condC (grid0.coords t) := fun h => by have := (hcondC t).mp h; omega
    rw [Dat.leavesExact_idle (dat0 V c) 4 t (idleAt0_4 t hC) (noFlush0_4 t hC),
      Dat.leavesExact_idle (dat0 V c) 5 t (idleAt0_5 t hC) (noFlush0_5 t hC)]
    rw [acc0_first_1 V c t h0, acc0_first_2 V c t h0]
    rw [PhiS0_zero V c _ _ h0, PhiA0_eq]
    iintro ⟨⟨HS0, HS1, Hrest, Hg⟩, Ho, ⟨%d0, H0⟩, ⟨%d1, H1⟩, ⟨%d2, H2⟩, ⟨%d3, H3⟩, ⟨%d4, H4⟩, ⟨%d5, H5⟩⟩
    iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
      ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hR : ¬condR (grid0.coords t) := fun h => h0 ((hcondR t).mp h)
    rw [PhiS0_later V c _ _ h0]
    by_cases h9 : t.val = 9
    · have hC : condC (grid0.coords t) := (hcondC t).mpr h9
      rw [leaves0_live V c 4 t (liveAt0_4 t hC), leaves0_live V c 5 t (liveAt0_5 t hC), after0_4, after0_5]
      rw [acc0_later_1 V c t h0, acc0_later_2 V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
        (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have hC : ¬condC (grid0.coords t) := fun h => h9 ((hcondC t).mp h)
      rw [Dat.leavesExact_idle (dat0 V c) 4 t (idleAt0_4 t hC) (noFlush0_4 t hC),
        Dat.leavesExact_idle (dat0 V c) 5 t (idleAt0_5 t hC) (noFlush0_5 t hC)]
      rw [acc0_later_1 V c t h0, acc0_later_2 V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
        ((dat0 V c).before 4 t d4) ((dat0 V c).before 5 t d5) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulators' named contents are forgotten. -/
theorem hout0 (c : Dev nD) : (dat0 V c).Φ (Fin.last cfg0.N) ⊢ Pipeline.ΦA spec0 c := by
  have hN : cfg0.N = 10 := N_0
  rw [show (dat0 V c).Φ (Fin.last cfg0.N) = PhiS0 V c (Fin.last cfg0.N).val (Nat.le_of_lt_succ (Fin.last cfg0.N).isLt) from rfl,
    PhiS0_later V c _ _ (by rw [Fin.val_last]; omega), PhiA0_eq]
  iintro ⟨HS0, HS1, Hrest, Hg⟩
  isplitl [HS0]; · iexists _; iexact HS0
  isplitl [HS1]; · iexists _; iexact HS1
  isplitl [Hrest]; · iexact Hrest
  iexact Hg

end Cert.Kernel.Hand

end
-- ==== Proof.KBody1.lean ====
/-
  The second kernel region (normalise, scale and shift, clamp at zero, second linear layer), at any float
  instance: what each window's staging buffer holds after the body at a grid point, and that the body,
  run at a point on the buffers the pipeline hands it, leaves exactly that.

  The region walks the 100000 rows in ten blocks of 10000. Window 0 stages the block of the first linear
  layer's output; windows 1 to 6 stage the whole of the mean row, the variance row, the scale row, the shift
  row, the second weight matrix and the second bias row at every point; window 7 is the output block. The
  body reads all seven inputs whole, and stores one value, whole, into the output block.
-/
import proofs.«114483_j81544249081987_1_alg».proof.Proof.Gen.Kernel.Launch
import proofs.«114483_j81544249081987_1_alg».proof.Proof.Gen.Kernel.Skeleton
import proofs.«114483_j81544249081987_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the core's buffers when the region is entered: a parameter. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body every input buffer still at its block, the
    output buffer at the body's one stored value of the seven input blocks; nothing kept between points but
    the scoped buffers the region does not stage and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The output block after the body at point `t`. -/
theorem after1_7 (c : Dev nD) (t : Fin cfg1.N) :
    (dat1 V c).after 7 t = k1_pay1 (iblk1 V c 0 t) (iblk1 V c 1 t) (iblk1 V c 2 t) (iblk1 V c 3 t) (iblk1 V c 4 t) (iblk1 V c 5 t) (iblk1 V c 6 t) := by
  dsimp only [dat1]

/-- The two offsets of a whole-buffer access are zero. -/
theorem hzero1 : (![0, 0] : Fin 2 → Nat) = fun _ => 0 := funext fun a => by fin_cases a <;> rfl

/-- The one rectangle through which the body touches a block of 10000 rows: all of it. -/
abbrev rOut1 : Rect S10000x128 := Rect.unit (s := S10000x128) ![0, 0] S10000x128.size inb_S10000x128_S10000x128_0_0

/-- One store through the whole rectangle covers every index of the block. -/
theorem coverOut1 (p : Vec F S10000x128 .f32) (y : S10000x128.Idx) :
    ∃ pc ∈ ([⟨rOut1, p⟩] : List (View.Piece (Elt F) S10000x128 .f32)), y ∈ pc.1.set :=
  ⟨_, List.mem_singleton_self _, View.mem_set_unit_zero hzero1 inb_S10000x128_S10000x128_0_0 y⟩

set_option maxHeartbeats 1000000 in
/-- The body on whole buffers: with the seven inputs reading `x0 … x6` and the output buffer at anything, it runs
    to its return with the inputs as they were and the output reading the one stored value of `x0 … x6`. Each
    load is of a whole buffer, so reads its contents; the one store is of a whole buffer, so leaves its value. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole)
    (x0 : Vec F S10000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay1 x0 x1 x2 x3 x4 x5 x6)) -∗ K ⟨⟩))
      ⊢ wp frame (wpE (defs₀ (F := F)) Variants.none c none) E (cc1__bn_relu_linear2_kernel i arg1 harg1 arg2 harg2 arg3 harg3 arg4 harg4 arg5 harg5 arg6 harg6 arg7 harg7 arg8 harg8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut1 _), View.canon_unit_zero hzero1]
  simp only [View.readAt_eq_ld, View.ld_unit_zero (S := S10000x128) hzero1, View.ld_unit_zero (S := S1x128) hzero1,
    View.ld_unit_zero (S := S128x128) hzero1]

/-! ## What the body leaves in the input windows: their blocks, untouched -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-! ## What the body finds in the input windows

An input window is never written by the body, so its current buffer holds what the last fetch into it brought.
Window 0 is fetched at every point. Windows 1 to 6 are fetched at the first point only, but their block index
never moves, so the block fetched then is the block of every later point. Either way the buffer holds the
window's block at the point. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body obligation at a point -/

/-- What the body is handed at point `t`: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the seven input buffers hold their blocks, so the body's run on whole buffers
    applies; the invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the whole kernel program, at any float instance: @main is a stretch of host operations, the first
  kernel region, a second stretch of host operations, the second kernel region. Between two items the core
  holds every unscoped buffer at a valuation computed from the launch memory: a host stretch applies its
  operations; a region leaves each of its arrays at what its write-backs fold to and every other buffer as it
  found it. Every weakly fair execution terminates, and the final memory is the last valuation. The argument
  arrays are read back through the fold to their launch contents (no host operation writes one; a region only
  stages it as an input or bypasses it), and the result array is what the second region's write-backs leave.
-/
import proofs.«114483_j81544249081987_1_alg».proof.Proof.KBody0
import proofs.«114483_j81544249081987_1_alg».proof.Proof.KBody1
import proofs.«114483_j81544249081987_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: what the first region is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs fold to, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: what the second region is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer the first host stretch does not write is as launched after it; one the second does not write is as
    the first region left it. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-! ## The proof data of both regions, and what rides beside the buffers -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, less the `owes`. -/
abbrev Tn (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W1`, left with them at `W2`. Its arrays are
    split out of the unscoped buffers at entry and put back at their final contents at exit; the generator
    register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are
    split out of the unscoped buffers at entry and put back at their final contents at exit; the generator
    register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds each unscoped buffer at the last valuation. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched; the result is what the second region leaves -/
theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| ((W2_arr m c 1).trans (((dat0 (V1 m) c).arrAt_in 1 rfl _).trans (A_eq0 (V1 m) c 1))).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl
theorem W4_main_arg8 (c : Dev nD) : W4 m c (Proc.devRef .tc main_arg8) = m ((c : Thread nD τ).loc main_arg8) :=
  ((W4_arr m c 5).trans (((dat1 (V3 m) c).arrAt_in 5 rfl _).trans (A_eq1 (V3 m) c 5))).trans <| (W3_of m c main_arg8 (by decide)).trans <| (W2_of_ne m c main_arg8 (by decide)).trans <| (W1_of m c main_arg8 (by decide)).trans rfl
theorem W4_main_arg9 (c : Dev nD) : W4 m c (Proc.devRef .tc main_arg9) = m ((c : Thread nD τ).loc main_arg9) :=
  (W4_of_ne m c main_arg9 (by decide)).trans <| (W3_of m c main_arg9 (by decide)).trans <| (W2_of_ne m c main_arg9 (by decide)).trans <| (W1_of m c main_arg9 (by decide)).trans rfl

/-- The result array after the run: the fold of the second region's write-backs of its output window. -/
theorem W4_main_v32 (c : Dev nD) : W4 m c (Proc.devRef .tc main_v32) = (dat1 (V3 m) c).arrAt 7 cfg1.N := W4_arr m c 7

/-- THE FRAME of the kernel program, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c)⟩) (run_main m ρ)

end Cert.Kernel.Hand

end
-- ==== Proof.KIBody0.lean ====
/-
  The first kernel region (first linear layer with the running column sums), at any float instance: what each
  window's staging buffer and the two accumulators hold after the body at a grid point, and that the body,
  run at a point on the buffers the pipeline hands it, leaves exactly that.

  The region walks the 100000 rows in ten blocks of 10000. Window 0 stages the block of the layer's input,
  windows 1 and 2 the whole weight matrix and the bias row; window 3 is the block of the layer's output;
  windows 4 and 5 are the 8 × 128 arrays of column sums and of column sums of squares, written back only at
  the last point. Two 8 × 128 scratch buffers carry the running sums from point to point: the body sets them
  to zero at the first point, adds the block's column sums (of the output, and of its squares) at every
  point, and copies them into windows 4 and 5 at the last point.
-/
import proofs.«114483_j81544249081987_1_alg».proof.Proof.Gen.KernelIdeal.Launch
import proofs.«114483_j81544249081987_1_alg».proof.Proof.Gen.KernelIdeal.Skeleton
import proofs.«114483_j81544249081987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the core's buffers when the region is entered: a parameter. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: from zero at the first point, each point adds its
    block's column sums, and column sums of squares, to what the point before left. -/
def acc0 (c : Dev nD) : (n : ℕ) → n < cfg0.N → Vec F S8x128 .f32 × Vec F S8x128 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (hn : 0 < cfg0.N) :
    acc0 V c 0 hn = (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

/-- The two scratch accumulators, as whole memrefs. -/
abbrev scM0_0 : Memref sig .tc .vmem S8x128 .f32 := Memref.whole cc0_scratch0
abbrev scM0_1 : Memref sig .tc .vmem S8x128 .f32 := Memref.whole cc0_scratch1

/-- The second region's staging buffers, scoped buffers this region never touches: each whole, at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the region keeps between points: before the first point the scoped buffers it does not stage at
    anything and the generator register; afterwards the same with the two accumulators at what the point
    before left in them. (A definition by recursion on the position; its two equations are stated below.) -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ rest0 (F := F) c ∗ (∃ r, prngReg c r)) := rfl

/-- The region's proof data: the arrays as found; after the body the three inputs still at their blocks, the
    output block at the layer's value of the input blocks, the two sum windows at the accumulators; the
    invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay3 (iblk0 V c 0 t) (iblk0 V c 1 t) (iblk0 V c 2 t) := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

/-! ## The body's two branches, decided over the grid -/

/-- The reset's condition: the grid coordinate is zero. -/
abbrev condR (i : grid0.Coords) : Prop := (Scalar.cmpi .ne (Scalar.extui (Scalar.cmpi .eq (BitVec.ofNat 32 (i 0).val) 0#32)) 0#32) = 1#1
/-- It holds at the first point only. -/
theorem hcondR : ∀ t : Fin cfg0.N, condR (grid0.coords t) ↔ t.val = 0 :=
  (by decide +kernel : ∀ t : Fin grid0.N, condR (grid0.coords t) ↔ t.val = 0)
/-- The copy-out's condition: the grid coordinate is nine. -/
abbrev condC (i : grid0.Coords) : Prop := k0_cond2 i = 1#1
/-- It holds at the last point only. -/
theorem hcondC : ∀ t : Fin cfg0.N, condC (grid0.coords t) ↔ t.val = 9 :=
  (by decide +kernel : ∀ t : Fin grid0.N, condC (grid0.coords t) ↔ t.val = 9)

/-! ## Whole-buffer loads and stores -/

/-- The zero offsets of a rank-two rectangle, as a constant function. -/
theorem hz2 : (![0, 0] : Fin 2 → ℕ) = fun _ => 0 := by
  funext a; fin_cases a <;> rfl

/-- After a store of `w` over the whole shape, whatever was stored before, the buffer reads `w`. -/
theorem read_store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load over the whole shape of a whole buffer whose contents read `X` is `X`. -/
theorem readAt_whole {S : Shape} {e : EltTy} (m : Memref sig .tc .vmem S e) (hm : m.IsWhole)
    {off : Fin S.rank → ℕ} (hz : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]

/-! ## The body on whole buffers, case by case -/

set_option maxHeartbeats 1000000 in
/-- The body at the first point (the reset taken, the copy-out not): on whole buffers, the three inputs at `x0 x1 x2`, the output block and the two accumulators at anything, the two sum windows at `y5 y6`, it leaves the inputs and the sum windows as they were, the output block at the layer's value, and each accumulator at its update of the zero vector: the accumulator is read back after the reset, so what is added to is zero. -/
theorem run0_A (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : condR i) (hC : ¬condC i)
    (x0 : Vec F S10000x128 .f32) (x1 : Vec F S128x128 .f32) (x2 : Vec F S1x128 .f32) (y5 y6 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare y5 ∗ owns (c : Thread nD τ) arg6 fullShare y6 ∗ owns (c : Thread nD τ) arg7 fullShare (k0_pay4 x0 x1 x2 (k0_pay1 (F := F))) ∗ owns (c : Thread nD τ) arg8 fullShare (k0_pay5 x0 x1 x2 (k0_pay2 (F := F)))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg5.eq_unread hf5; obtain rfl := harg6.eq_unread hf6
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [read_store_whole _ _ hz2, readAt_whole _ harg1 hz2, readAt_whole _ harg2 hz2, readAt_whole _ harg3 hz2]
    sl_unfold_words
    rw [View.readCov_unit_zero (S := S8x128) _ hz2]
  · iexists _; isplitr; swap; · iexact H8
    ipureintro
    rw [read_store_whole _ _ hz2, readAt_whole _ harg1 hz2, readAt_whole _ harg2 hz2, readAt_whole _ harg3 hz2]
    sl_unfold_words
    rw [View.readCov_unit_zero (S := S8x128) _ hz2]

set_option maxHeartbeats 1000000 in
/-- The body at a middle point (neither branch taken): the accumulators come in at `s7 s8` and go out at their updates by the block; the sum windows are handed back as they were. -/
theorem run0_B (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : ¬condR i) (hC : ¬condC i)
    (x0 : Vec F S10000x128 .f32) (x1 : Vec F S128x128 .f32) (x2 : Vec F S1x128 .f32) (y5 y6 s7 s8 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y5 ∗ owns (c : Thread nD τ) arg6 fullShare y6 ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare y5 ∗ owns (c : Thread nD τ) arg6 fullShare y6 ∗ owns (c : Thread nD τ) arg7 fullShare (k0_pay4 x0 x1 x2 s7) ∗ owns (c : Thread nD τ) arg8 fullShare (k0_pay5 x0 x1 x2 s8)) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg5.eq_unread hf5; obtain rfl := harg6.eq_unread hf6; obtain rfl := harg7.eq_unread hf7; obtain rfl := harg8.eq_unread hf8
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rw [read_store_whole _ _ hz2, readAt_whole _ harg1 hz2, readAt_whole _ harg2 hz2, readAt_whole _ harg3 hz2, readAt_whole _ harg7 hz2]
  · iexists _; isplitr; swap; · iexact H8
    ipureintro
    rw [read_store_whole _ _ hz2, readAt_whole _ harg1 hz2, readAt_whole _ harg2 hz2, readAt_whole _ harg3 hz2, readAt_whole _ harg8 hz2]

set_option maxHeartbeats 1000000 in
/-- The body at the last point (the copy-out taken, the reset not): as at a middle point, and then each sum window receives the accumulator's new contents, read back after the update. -/
theorem run0_C (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole)
    (hR : ¬condR i) (hC : condC i)
    (x0 : Vec F S10000x128 .f32) (x1 : Vec F S128x128 .f32) (x2 : Vec F S1x128 .f32) (s7 s8 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare (k0_pay3 x0 x1 x2) ∗ owns (c : Thread nD τ) arg5 fullShare (k0_pay4 x0 x1 x2 s7) ∗ owns (c : Thread nD τ) arg6 fullShare (k0_pay5 x0 x1 x2 s8) ∗ owns (c : Thread nD τ) arg7 fullShare (k0_pay4 x0 x1 x2 s7) ∗ owns (c : Thread nD τ) arg8 fullShare (k0_pay5 x0 x1 x2 s8)) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8) K := by
  simp only [cc0__linear1_stats_kernel_eq_skeleton]; unfold cc0__linear1_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hR | exact hC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_store_whole _ _ hz2, readAt_whole _ harg1 hz2, readAt_whole _ harg2 hz2, readAt_whole _ harg3 hz2]
  isplitl [H5]
  · iexists _; isplitr; swap; · iexact H5
    ipureintro
    rw [read_store_whole _ _ hz2]
    sl_unfold_words
    rw [View.readCov_unit_zero (S := S8x128) _ hz2, readAt_whole _ harg1 hz2, readAt_whole _ harg2 hz2, readAt_whole _ harg3 hz2, readAt_whole _ harg7 hz2]
  isplitl [H6]
  · iexists _; isplitr; swap; · iexact H6
    ipureintro
    rw [read_store_whole _ _ hz2]
    sl_unfold_words
    rw [View.readCov_unit_zero (S := S8x128) _ hz2, readAt_whole _ harg1 hz2, readAt_whole _ harg2 hz2, readAt_whole _ harg3 hz2, readAt_whole _ harg8 hz2]
  isplitl [H7]
  · iexists _; isplitr; swap; · iexact H7
    ipureintro
    sl_unfold_words
    rw [read_store_whole _ _ hz2, readAt_whole _ harg1 hz2, readAt_whole _ harg2 hz2, readAt_whole _ harg3 hz2, readAt_whole _ harg7 hz2]
  · iexists _; isplitr; swap; · iexact H8
    ipureintro
    sl_unfold_words
    rw [read_store_whole _ _ hz2, readAt_whole _ harg1 hz2, readAt_whole _ harg2 hz2, readAt_whole _ harg3 hz2, readAt_whole _ harg8 hz2]

/-! ## Where the windows are live and where the two sum windows rest -/

/-- The three inputs and the output block are stored into, or read, at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point nothing is stored into either sum window, and neither is written back. -/
theorem idleAt0_4 : ∀ t : Fin cfg0.N, ¬condC (grid0.coords t) → cfg0.idle 4 (grid0.coords t) = true := by decide +kernel
theorem idleAt0_5 : ∀ t : Fin cfg0.N, ¬condC (grid0.coords t) → cfg0.idle 5 (grid0.coords t) = true := by decide +kernel
theorem noFlush0_4 : ∀ t : Fin cfg0.N, ¬condC (grid0.coords t) → (cfg0.win 4).flush t = false := by decide +kernel
theorem noFlush0_5 : ∀ t : Fin cfg0.N, ¬condC (grid0.coords t) → (cfg0.win 5).flush t = false := by decide +kernel
/-- At the last point both are stored into. -/
theorem liveAt0_4 : ∀ t : Fin cfg0.N, condC (grid0.coords t) → cfg0.idle 4 (grid0.coords t) = false := by decide +kernel
theorem liveAt0_5 : ∀ t : Fin cfg0.N, condC (grid0.coords t) → cfg0.idle 5 (grid0.coords t) = false := by decide +kernel

/-! ## The accumulators and the invariant, point by point -/

/-- At the first point the accumulators are the block's sums added to zero. -/
theorem acc0_first_1 (c : Dev nD) (t : Fin cfg0.N) (ht : t.val = 0) :
    (acc0 V c t.val t.isLt).1 = k0_pay4 (iblk0 V c 0 t) (iblk0 V c 1 t) (iblk0 V c 2 t) (k0_pay1 (F := F)) := by
  obtain ⟨n, hn⟩ := t
  cases n with
  | zero => exact congrArg Prod.fst (acc0_zero V c hn)
  | succ n => exact absurd ht (Nat.succ_ne_zero n)
theorem acc0_first_2 (c : Dev nD) (t : Fin cfg0.N) (ht : t.val = 0) :
    (acc0 V c t.val t.isLt).2 = k0_pay5 (iblk0 V c 0 t) (iblk0 V c 1 t) (iblk0 V c 2 t) (k0_pay2 (F := F)) := by
  obtain ⟨n, hn⟩ := t
  cases n with
  | zero => exact congrArg Prod.snd (acc0_zero V c hn)
  | succ n => exact absurd ht (Nat.succ_ne_zero n)

/-- At a later point they are the block's sums added to what the point before left. -/
theorem acc0_later_1 (c : Dev nD) (t : Fin cfg0.N) (ht : t.val ≠ 0) :
    (acc0 V c t.val t.isLt).1 = k0_pay4 (iblk0 V c 0 t) (iblk0 V c 1 t) (iblk0 V c 2 t)
      (acc0 V c (t.val - 1) (Nat.lt_of_le_of_lt (Nat.sub_le _ _) t.isLt)).1 := by
  obtain ⟨n, hn⟩ := t
  cases n with
  | zero => exact absurd rfl ht
  | succ n => exact congrArg Prod.fst (acc0_succ V c n hn)
theorem acc0_later_2 (c : Dev nD) (t : Fin cfg0.N) (ht : t.val ≠ 0) :
    (acc0 V c t.val t.isLt).2 = k0_pay5 (iblk0 V c 0 t) (iblk0 V c 1 t) (iblk0 V c 2 t)
      (acc0 V c (t.val - 1) (Nat.lt_of_le_of_lt (Nat.sub_le _ _) t.isLt)).2 := by
  obtain ⟨n, hn⟩ := t
  cases n with
  | zero => exact absurd rfl ht
  | succ n => exact congrArg Prod.snd (acc0_succ V c n hn)

/-- Before any point but the first the invariant holds the accumulators at what the point before left. -/
theorem PhiS0_later (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Separating conjunction regrouped: the last conjunct of a nested group moved out beside a fourth. -/
theorem sep_regroup {M : Type} [URA M] (A B R G : sProp M) :
    (iprop((A ∗ B ∗ R) ∗ G) : sProp M) = iprop(A ∗ B ∗ R ∗ G) := by
  have h₁ : iprop((A ∗ B ∗ R) ∗ G) ⊢ (iprop(A ∗ B ∗ R ∗ G) : sProp M) := by
    iintro ⟨⟨HA, HB, HR⟩, HG⟩
    isplitl [HA]; · iexact HA
    isplitl [HB]; · iexact HB
    isplitl [HR]; · iexact HR
    iexact HG
  have h₂ : iprop(A ∗ B ∗ R ∗ G) ⊢ (iprop((A ∗ B ∗ R) ∗ G) : sProp M) := by
    iintro ⟨HA, HB, HR, HG⟩
    isplitr [HG]; swap; · iexact HG
    isplitl [HA]; · iexact HA
    isplitl [HB]; · iexact HB
    iexact HR
  exact BI.equiv_iff.mp ⟨h₁, h₂⟩

/-- What the region is handed, with the two accumulators set apart as whole buffers at some contents. -/
theorem PhiA0_eq (c : Dev nD) :
    (Pipeline.ΦA spec0 c : sProp 𝕄)
      = iprop((∃ d, owns (c : Thread nD τ) scM0_0 fullShare d) ∗ (∃ d, owns (c : Thread nD τ) scM0_1 fullShare d)
          ∗ rest0 (F := F) c ∗ (∃ r, prngReg c r)) := by
  unfold Pipeline.ΦA rest0; rw [scopedRest0_eq]; simp only [scM0_0, scM0_1, owns_whole]
  exact sep_regroup _ _ _ _

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input window's current buffer holds its block at every point: where it was fetched by the fetch, and where it
    was not its block index has not moved since the point before, whose block the body left in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- A window the body stores into at the point is left at the proof data's contents. -/
theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

/-! ## The body obligation at a generic point -/

/-- What the body is called with at point `t`: the invariant, what the core owes, and each window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the position decides the case. At the first point the
    invariant is what the launch hands over, so the accumulators come at anything and leave at the first block's sums
    added to zero; later they come at what the point before left and leave at the next partial sums. The two sum windows
    rest untouched until the last point, where they receive the accumulators. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_live V c 0 t (liveAt0_0 t), leaves0_live V c 1 t (liveAt0_1 t), leaves0_live V c 2 t (liveAt0_2 t),
    leaves0_live V c 3 t (liveAt0_3 t), after0_0, after0_1, after0_2, after0_3]
  rw [PhiS0_castSucc]
  have hN : t.val < 10 := lt_of_lt_of_eq t.isLt (show cfg0.N = 10 from N_0)
  by_cases h0 : t.val = 0
  · have hR : condR (grid0.coords t) := (hcondR t).mpr h0
    have hC : ¬condC (grid0.coords t) := fun h => by have := (hcondC t).mp h; omega
    rw [Dat.leavesExact_idle (dat0 V c) 4 t (idleAt0_4 t hC) (noFlush0_4 t hC),
      Dat.leavesExact_idle (dat0 V c) 5 t (idleAt0_5 t hC) (noFlush0_5 t hC)]
    rw [acc0_first_1 V c t h0, acc0_first_2 V c t h0]
    rw [PhiS0_zero V c _ _ h0, PhiA0_eq]
    iintro ⟨⟨HS0, HS1, Hrest, Hg⟩, Ho, ⟨%d0, H0⟩, ⟨%d1, H1⟩, ⟨%d2, H2⟩, ⟨%d3, H3⟩, ⟨%d4, H4⟩, ⟨%d5, H5⟩⟩
    iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
      ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hR : ¬condR (grid0.coords t) := fun h => h0 ((hcondR t).mp h)
    rw [PhiS0_later V c _ _ h0]
    by_cases h9 : t.val = 9
    · have hC : condC (grid0.coords t) := (hcondC t).mpr h9
      rw [leaves0_live V c 4 t (liveAt0_4 t hC), leaves0_live V c 5 t (liveAt0_5 t hC), after0_4, after0_5]
      rw [acc0_later_1 V c t h0, acc0_later_2 V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
        (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have hC : ¬condC (grid0.coords t) := fun h => h9 ((hcondC t).mp h)
      rw [Dat.leavesExact_idle (dat0 V c) 4 t (idleAt0_4 t hC) (noFlush0_4 t hC),
        Dat.leavesExact_idle (dat0 V c) 5 t (idleAt0_5 t hC) (noFlush0_5 t hC)]
      rw [acc0_later_1 V c t h0, acc0_later_2 V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM0_0 (Memref.isWhole_whole _) scM0_1 (Memref.isWhole_whole _) hR hC (iblk0 V c 0 t) (iblk0 V c 1 t) (iblk0 V c 2 t)
        ((dat0 V c).before 4 t d4) ((dat0 V c).before 5 t d5) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulators' named contents are forgotten. -/
theorem hout0 (c : Dev nD) : (dat0 V c).Φ (Fin.last cfg0.N) ⊢ Pipeline.ΦA spec0 c := by
  have hN : cfg0.N = 10 := N_0
  rw [show (dat0 V c).Φ (Fin.last cfg0.N) = PhiS0 V c (Fin.last cfg0.N).val (Nat.le_of_lt_succ (Fin.last cfg0.N).isLt) from rfl,
    PhiS0_later V c _ _ (by rw [Fin.val_last]; omega), PhiA0_eq]
  iintro ⟨HS0, HS1, Hrest, Hg⟩
  isplitl [HS0]; · iexists _; iexact HS0
  isplitl [HS1]; · iexists _; iexact HS1
  isplitl [Hrest]; · iexact Hrest
  iexact Hg

end Cert.KernelIdeal.Hand

end
-- ==== Proof.KIBody1.lean ====
/-
  The second kernel region (normalise, scale and shift, clamp at zero, second linear layer), at any float
  instance: what each window's staging buffer holds after the body at a grid point, and that the body,
  run at a point on the buffers the pipeline hands it, leaves exactly that.

  The region walks the 100000 rows in ten blocks of 10000. Window 0 stages the block of the first linear
  layer's output; windows 1 to 6 stage the whole of the mean row, the variance row, the scale row, the shift
  row, the second weight matrix and the second bias row at every point; window 7 is the output block. The
  body reads all seven inputs whole, and stores one value, whole, into the output block.
-/
import proofs.«114483_j81544249081987_1_alg».proof.Proof.Gen.KernelIdeal.Launch
import proofs.«114483_j81544249081987_1_alg».proof.Proof.Gen.KernelIdeal.Skeleton
import proofs.«114483_j81544249081987_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the core's buffers when the region is entered: a parameter. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body every input buffer still at its block, the
    output buffer at the body's one stored value of the seven input blocks; nothing kept between points but
    the scoped buffers the region does not stage and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The output block after the body at point `t`. -/
theorem after1_7 (c : Dev nD) (t : Fin cfg1.N) :
    (dat1 V c).after 7 t = k1_pay1 (iblk1 V c 0 t) (iblk1 V c 1 t) (iblk1 V c 2 t) (iblk1 V c 3 t) (iblk1 V c 4 t) (iblk1 V c 5 t) (iblk1 V c 6 t) := by
  dsimp only [dat1]

/-- The two offsets of a whole-buffer access are zero. -/
theorem hzero1 : (![0, 0] : Fin 2 → Nat) = fun _ => 0 := funext fun a => by fin_cases a <;> rfl

/-- The one rectangle through which the body touches a block of 10000 rows: all of it. -/
abbrev rOut1 : Rect S10000x128 := Rect.unit (s := S10000x128) ![0, 0] S10000x128.size inb_S10000x128_S10000x128_0_0

/-- One store through the whole rectangle covers every index of the block. -/
theorem coverOut1 (p : Vec F S10000x128 .f32) (y : S10000x128.Idx) :
    ∃ pc ∈ ([⟨rOut1, p⟩] : List (View.Piece (Elt F) S10000x128 .f32)), y ∈ pc.1.set :=
  ⟨_, List.mem_singleton_self _, View.mem_set_unit_zero hzero1 inb_S10000x128_S10000x128_0_0 y⟩

set_option maxHeartbeats 1000000 in
/-- The body on whole buffers: with the seven inputs reading `x0 … x6` and the output buffer at anything, it runs
    to its return with the inputs as they were and the output reading the one stored value of `x0 … x6`. Each
    load is of a whole buffer, so reads its contents; the one store is of a whole buffer, so leaves its value. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole)
    (x0 : Vec F S10000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay1 x0 x1 x2 x3 x4 x5 x6)) -∗ K ⟨⟩))
      ⊢ wp frame (wpE (defs₀ (F := F)) Variants.none c none) E (cc1__bn_relu_linear2_kernel i arg1 harg1 arg2 harg2 arg3 harg3 arg4 harg4 arg5 harg5 arg6 harg6 arg7 harg7 arg8 harg8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut1 _), View.canon_unit_zero hzero1]
  simp only [View.readAt_eq_ld, View.ld_unit_zero (S := S10000x128) hzero1, View.ld_unit_zero (S := S1x128) hzero1,
    View.ld_unit_zero (S := S128x128) hzero1]

/-! ## What the body leaves in the input windows: their blocks, untouched -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-! ## What the body finds in the input windows

An input window is never written by the body, so its current buffer holds what the last fetch into it brought.
Window 0 is fetched at every point. Windows 1 to 6 are fetched at the first point only, but their block index
never moves, so the block fetched then is the block of every later point. Either way the buffer holds the
window's block at the point. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body obligation at a point -/

/-- What the body is handed at point `t`: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the seven input buffers hold their blocks, so the body's run on whole buffers
    applies; the invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the whole kernel program, at any float instance: @main is a stretch of host operations, the first
  kernel region, a second stretch of host operations, the second kernel region. Between two items the core
  holds every unscoped buffer at a valuation computed from the launch memory: a host stretch applies its
  operations; a region leaves each of its arrays at what its write-backs fold to and every other buffer as it
  found it. Every weakly fair execution terminates, and the final memory is the last valuation. The argument
  arrays are read back through the fold to their launch contents (no host operation writes one; a region only
  stages it as an input or bypasses it), and the result array is what the second region's write-backs leave.
-/
import proofs.«114483_j81544249081987_1_alg».proof.Proof.KIBody0
import proofs.«114483_j81544249081987_1_alg».proof.Proof.KIBody1
import proofs.«114483_j81544249081987_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: what the first region is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs fold to, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: what the second region is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer the first host stretch does not write is as launched after it; one the second does not write is as
    the first region left it. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-! ## The proof data of both regions, and what rides beside the buffers -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, less the `owes`. -/
abbrev Tn (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W1`, left with them at `W2`. Its arrays are
    split out of the unscoped buffers at entry and put back at their final contents at exit; the generator
    register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are
    split out of the unscoped buffers at entry and put back at their final contents at exit; the generator
    register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds each unscoped buffer at the last valuation. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched; the result is what the second region leaves -/
theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| ((W2_arr m c 1).trans (((dat0 (V1 m) c).arrAt_in 1 rfl _).trans (A_eq0 (V1 m) c 1))).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl
theorem W4_main_arg8 (c : Dev nD) : W4 m c (Proc.devRef .tc main_arg8) = m ((c : Thread nD τ).loc main_arg8) :=
  ((W4_arr m c 5).trans (((dat1 (V3 m) c).arrAt_in 5 rfl _).trans (A_eq1 (V3 m) c 5))).trans <| (W3_of m c main_arg8 (by decide)).trans <| (W2_of_ne m c main_arg8 (by decide)).trans <| (W1_of m c main_arg8 (by decide)).trans rfl
theorem W4_main_arg9 (c : Dev nD) : W4 m c (Proc.devRef .tc main_arg9) = m ((c : Thread nD τ).loc main_arg9) :=
  (W4_of_ne m c main_arg9 (by decide)).trans <| (W3_of m c main_arg9 (by decide)).trans <| (W2_of_ne m c main_arg9 (by decide)).trans <| (W1_of m c main_arg9 (by decide)).trans rfl

/-- The result array after the run: the fold of the second region's write-backs of its output window. -/
theorem W4_main_v32 (c : Dev nD) : W4 m c (Proc.devRef .tc main_v32) = (dat1 (V3 m) c).arrAt 7 cfg1.N := W4_arr m c 7

/-- THE FRAME of the kernel program, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c)⟩) (run_main m ρ)

end Cert.KernelIdeal.Hand

end
-- ==== Proof.KINs.lean ====
/-
  The neighbour sums of the graph layer, as the kernel program's host prologue spells them.

  Row `i` of the result is the sum, over the edges whose destination is `i`, of the source's feature row: the
  rows named by `src` are gathered (a gathered entry is an entry of `x`) and scatter-added into zeros (an entry of
  the result is zero plus a finite sum of gathered entries). Both programs compute them by the same operations, so
  the term is carried whole through the value argument.
-/
import proofs.«114483_j81544249081987_1_alg».proof.Proof.Gen.KernelIdeal
import Idealize.ShloMosaic.PureOps.Ideal
import Idealize.ShloMosaic.PureOps.Ideal.Laws

noncomputable section

namespace Cert.KernelIdeal.Hand

open Cert.KernelIdeal Cert.KernelIdeal.Gen
open Idealize.ShloMosaic

/-- The neighbour sums: the rows of `x` named by `src` (a negative index counted from the end), scatter-added
    into zeros at the rows named by `dst`. -/
def nsK (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.KernelIdeal.Hand

end
-- ==== Proof.KIGlueA.lean ====
/-
  What the two stretches of host operations compute, as terms over the launch memory and over what the first
  kernel region leaves, at the exact-real instance.

  Before the first region: the gathered rows are scatter-added into zeros (the neighbour sums), and the first
  layer's input is `(1 + eps) · x` plus those sums; the first bias vector is recast as a row. Between the
  regions: row 0 of each of the two sum arrays is divided by the row count (the mean, and the mean of squares);
  the variance is the mean of squares less the squared mean; the mean, the variance, the scale, the shift and
  the second bias are recast as rows.
-/
import proofs.«114483_j81544249081987_1_alg».proof.Proof.KIRun
import proofs.«114483_j81544249081987_1_alg».proof.Proof.KINs
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The ten arguments as launched, at their literal types. -/
abbrev A0 : FVec Ideal S100000x128 .f32 := m ((c.tc : Thread nD τ).loc main_arg0)
abbrev A1 : IVec S1600000 32 := m ((c.tc : Thread nD τ).loc main_arg1)
abbrev A2 : IVec S1600000 32 := m ((c.tc : Thread nD τ).loc main_arg2)
abbrev A3 : FVec Ideal S1 .f32 := m ((c.tc : Thread nD τ).loc main_arg3)
abbrev A4 : FVec Ideal S128x128 .f32 := m ((c.tc : Thread nD τ).loc main_arg4)
abbrev A5 : FVec Ideal S128 .f32 := m ((c.tc : Thread nD τ).loc main_arg5)
abbrev A6 : FVec Ideal S128 .f32 := m ((c.tc : Thread nD τ).loc main_arg6)
abbrev A7 : FVec Ideal S128 .f32 := m ((c.tc : Thread nD τ).loc main_arg7)
abbrev A8 : FVec Ideal S128x128 .f32 := m ((c.tc : Thread nD τ).loc main_arg8)
abbrev A9 : FVec Ideal S128 .f32 := m ((c.tc : Thread nD τ).loc main_arg9)

set_option maxHeartbeats 4000000 in
/-- The first layer's input, as the first host stretch computes it. -/
theorem v14_term : V1 m c main_v14
    = addf (mulf (broadcastInDim S100000x128 ![] bcast_S_S100000x128
          (addf (constant (F := Ideal) S_ .f32 0x3F800000#32) (shapeCast S_ (A3 m c) shapeCasts_S1_S_))) (A0 m c))
        (nsK (A0 m c) (A1 m c) (A2 m c)) := by
  show StableHlo.after hostOps0 (W0 m c) (Proc.devRef .tc main_v14) = _
  after_results
  rfl

set_option maxHeartbeats 4000000 in
/-- The first bias as a row. -/
theorem v15_term : V1 m c main_v15 = shapeCast S1x128 (A5 m c) shapeCasts_S128_S1x128 := by
  show StableHlo.after hostOps0 (W0 m c) (Proc.devRef .tc main_v15) = _
  after_results
  rfl

/-- Row 0 of a sum array, as a vector. -/
abbrev row0 (s : FVec Ideal S8x128 .f32) : FVec Ideal S128 .f32 :=
  shapeCast S128 (extractStridedSlice S1x128 ![0, 0] s slices_S8x128_S1x128_0_0) shapeCasts_S1x128_S128
/-- The row count, broadcast. -/
abbrev cNvec : FVec Ideal S128 .f32 := broadcastInDim S128 ![] bcast_S_S128 (constant (F := Ideal) S_ .f32 0x47C35000#32)

set_option maxHeartbeats 4000000 in
/-- The mean row. -/
theorem v27_term : V3 m c main_v27
    = shapeCast S1x128 (Host.divf (row0 (W2 m c (Proc.devRef .tc main_v16_1))) cNvec) shapeCasts_S128_S1x128 := by
  show StableHlo.after hostOps1 (W2 m c) (Proc.devRef .tc main_v27) = _
  after_results
  rfl

set_option maxHeartbeats 4000000 in
/-- The variance row. -/
theorem v28_term : V3 m c main_v28
    = shapeCast S1x128 (subf (Host.divf (row0 (W2 m c (Proc.devRef .tc main_v16_2))) cNvec)
        (mulf (Host.divf (row0 (W2 m c (Proc.devRef .tc main_v16_1))) cNvec)
          (Host.divf (row0 (W2 m c (Proc.devRef .tc main_v16_1))) cNvec))) shapeCasts_S128_S1x128 := by
  show StableHlo.after hostOps1 (W2 m c) (Proc.devRef .tc main_v28) = _
  after_results
  rfl

set_option maxHeartbeats 4000000 in
/-- The scale, the shift and the second bias as rows. -/
theorem v29_term : V3 m c main_v29 = shapeCast S1x128 (W2 m c (Proc.devRef .tc main_arg6)) shapeCasts_S128_S1x128 := by
  show StableHlo.after hostOps1 (W2 m c) (Proc.devRef .tc main_v29) = _
  after_results
  rfl
set_option maxHeartbeats 4000000 in
theorem v30_term : V3 m c main_v30 = shapeCast S1x128 (W2 m c (Proc.devRef .tc main_arg7)) shapeCasts_S128_S1x128 := by
  show StableHlo.after hostOps1 (W2 m c) (Proc.devRef .tc main_v30) = _
  after_results
  rfl
set_option maxHeartbeats 4000000 in
theorem v31_term : V3 m c main_v31 = shapeCast S1x128 (W2 m c (Proc.devRef .tc main_arg9)) shapeCasts_S128_S1x128 := by
  show StableHlo.after hostOps1 (W2 m c) (Proc.devRef .tc main_v31) = _
  after_results
  rfl

end Cert.KernelIdeal.Hand

end
-- ==== Proof.Spec.lean ====
/-
  The shared vocabulary of the value argument, over the extended reals and literal shapes.

  A GIN layer followed by a two-layer perceptron with batch normalisation over the 100000 rows:
  with `h0 = (1 + eps) · x + ns` (`ns` the neighbour sums), `h1 = h0 · W1 + b1`, the column means
  `μ_k = (Σ_r h1[r,k]) / N` and a column variance `v_k`, the result is
  `out[i,q] = Σ_k max (γ_k · (h1[i,k] − μ_k) · rsqrt (v_k + ε) + β_k) 0 · W2[k,q] + b2[q]`.
  The two programs differ in the variance they use: the mean of the squared deviations
  (`varDev`), against the mean of the squares less the squared mean (`varSq`). For a column of
  real numbers the two agree (`varSq_eq_varDev`, in the module of the algebra).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The activations' shape, the weights' shape, a feature vector's shape. -/
abbrev SN : Shape := ⟨2, ![100000, 128]⟩
abbrev SD : Shape := ⟨2, ![128, 128]⟩
abbrev SV : Shape := ⟨1, ![128]⟩

/-- The row count as the float literal both programs divide by; it denotes the real 100000 (`cN_eq`). -/
abbrev cN : EReal := Ideal.ofBits .f32 0x47C35000#32
/-- The normalisation's epsilon, the same literal on both sides: never evaluated. -/
abbrev epsBN : EReal := Ideal.ofBits .f32 0x3727C5AC#32
/-- The literal one of the residual's `1 + eps`, the same on both sides: never evaluated. -/
abbrev one32 : EReal := Ideal.ofBits .f32 0x3F800000#32

/-- The residual combine: `(1 + eps) · x + ns`, entry by entry. -/
def h0 (x : SN.Idx → EReal) (eps : EReal) (ns : SN.Idx → EReal) : SN.Idx → EReal :=
  fun i => (one32 + eps) * x i + ns i

/-- A linear layer on every row: `Σ_k h[i,k] · W[k,q] + b[q]`. -/
def lin (h : SN.Idx → EReal) (W : SD.Idx → EReal) (b : SV.Idx → EReal) : SN.Idx → EReal :=
  fun i => (∑ k : Fin 128, h (ix2 (i 0) k) * W (ix2 k (i 1))) + b (ix1 (i 1))

/-- The sum of a column over all rows. -/
def colSum (h : SN.Idx → EReal) : SV.Idx → EReal :=
  fun j => ∑ r : Fin 100000, h (ix2 r (j 0))

/-- The sum of a column's squares over all rows. -/
def colSumSq (h : SN.Idx → EReal) : SV.Idx → EReal :=
  fun j => ∑ r : Fin 100000, h (ix2 r (j 0)) * h (ix2 r (j 0))

/-- The column mean. -/
def mean (h : SN.Idx → EReal) : SV.Idx → EReal :=
  fun j => Ideal.div (colSum h j) cN

/-- The variance as the mean of the squared deviations from the mean. -/
def varDev (h : SN.Idx → EReal) : SV.Idx → EReal :=
  fun j => Ideal.div (∑ r : Fin 100000, (h (ix2 r (j 0)) - mean h j) * (h (ix2 r (j 0)) - mean h j)) cN

/-- The variance as the mean of the squares less the squared mean. -/
def varSq (h : SN.Idx → EReal) : SV.Idx → EReal :=
  fun j => Ideal.div (colSumSq h j) cN - mean h j * mean h j

/-- Normalise with mean `μ` and variance `v`, scale and shift, clamp at zero, and apply the second linear layer. -/
def bnOut (h : SN.Idx → EReal) (μ v γ β : SV.Idx → EReal) (W2 : SD.Idx → EReal) (b2 : SV.Idx → EReal) : SN.Idx → EReal :=
  fun i => (∑ k : Fin 128,
      max (γ (ix1 k) * (h (ix2 (i 0) k) - μ (ix1 k)) * Ideal.rsqrt (v (ix1 k) + epsBN) + β (ix1 k)) 0
        * W2 (ix2 k (i 1))) + b2 (ix1 (i 1))

/-- The whole layer with the variance `v` left as a parameter of the first linear layer's output. -/
def layer (v : (SN.Idx → EReal) → SV.Idx → EReal) (x : SN.Idx → EReal) (eps : EReal) (ns : SN.Idx → EReal)
    (W1 : SD.Idx → EReal) (b1 γ β : SV.Idx → EReal) (W2 : SD.Idx → EReal) (b2 : SV.Idx → EReal) : SN.Idx → EReal :=
  bnOut (lin (h0 x eps ns) W1 b1) (mean (lin (h0 x eps ns) W1 b1)) (v (lin (h0 x eps ns) W1 b1)) γ β W2 b2

/-- An array all of whose entries are real numbers. -/
def Finite {S : Shape} (x : S.Idx → EReal) : Prop := ∀ i, ∃ r : ℝ, x i = (r : EReal)

end Cert.Spec

end
-- ==== Proof.KIPay.lean ====
/-
  The kernels' stored values read at coordinates, over the extended reals.

  Every value a kernel body stores is one pure function of the values it loaded. Read at a row `p` and a
  feature `q`: the first layer's block is `Σ_k x[p,k] · W[k,q] + b[0,q]` (a matrix product into a zero
  accumulator, a change of float format being the identity here, plus the broadcast bias row); the running sums
  add to what they held the block's column sum, respectively the column sum of squares, the same on each of
  their eight rows; the reset values are zero; the second layer's block is the normalised, scaled, shifted,
  clamped row times the second weight matrix plus the second bias row.
-/
import proofs.«114483_j81544249081987_1_alg».proof.Proof.Gen.KernelIdeal.Skeleton
import proofs.«114483_j81544249081987_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-! ## The reset values

A zero word spread over an 8 × 128 block, through a change of shape that changes nothing. -/

/-- The reset values are zero. -/
theorem pay1_apply (r : Fin 8) (q : Fin 128) : k0_pay1 (F := Ideal) (ix2 r q) = 0 := by
  unfold k0_pay1
  show shapeCast S8x128 (broadcast S8x128 (Scalar.ofBits (F := Ideal) .f32 0x00000000#32)) shapeCasts_S8x128_S8x128 (ix2 r q) = 0
  rw [shapeCast_self]
  exact Ideal.ofBits_zero_f32
theorem pay2_apply (r : Fin 8) (q : Fin 128) : k0_pay2 (F := Ideal) (ix2 r q) = 0 := by
  unfold k0_pay2
  show shapeCast S8x128 (broadcast S8x128 (Scalar.ofBits (F := Ideal) .f32 0x00000000#32)) shapeCasts_S8x128_S8x128 (ix2 r q) = 0
  rw [shapeCast_self]
  exact Ideal.ofBits_zero_f32

/-! ## The matrix product's operand indices

The product contracts the left operand's second axis with the right operand's first; at an output position and a
contraction position the operand positions are read off axis by axis. -/

theorem dot_lhs_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem dot_lhs_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
theorem dot_rhs_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
theorem dot_rhs_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into a zero accumulator, at a row and a feature: the sum over the 128 contracted positions of the left
    operand's row entry times the right operand's column entry. -/
theorem matmul_zero_apply {φ₁ φ₂ : FTy} (A : FVec Ideal S10000x128 φ₁) (B : FVec Ideal S128x128 φ₂) (p : Fin 10000) (q : Fin 128) :
    matmul dot_S10000x128_S128x128_S10000x128_1_0_0_1_n_n none A B (constant (F := Ideal) S10000x128 .f32 0x00000000#32) (ix2 p q)
      = ∑ k : Fin 128, A (ix2 p k) * B (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

/-- The first layer's block at a row and a feature. -/
theorem pay3_apply (x0 : Vec Ideal S10000x128 .f32) (x1 : Vec Ideal S128x128 .f32) (x2 : Vec Ideal S1x128 .f32)
    (p : Fin 10000) (q : Fin 128) :
    k0_pay3 (F := Ideal) x0 x1 x2 (ix2 p q) = (∑ k : Fin 128, x0 (ix2 p k) * x1 (ix2 k q)) + x2 (ix2 0 q) := by
  unfold k0_pay3
  show addf (matmul dot_S10000x128_S128x128_S10000x128_1_0_0_1_n_n none
        (truncf .bf16 (shapeCast S10000x128 x0 shapeCasts_S10000x128_S10000x128) bitsLt_bf16_f32)
        (truncf .bf16 x1 bitsLt_bf16_f32) (constant (F := Ideal) S10000x128 .f32 0x00000000#32))
      (broadcastTo S10000x128 (shapeCast S1x128 x2 shapeCasts_S1x128_S1x128) broadcasts_S1x128_S10000x128) (ix2 p q) = _
  rw [addf_apply, matmul_zero_apply, broadcastTo_1b_ab_apply, shapeCast_self, shapeCast_self]
  rfl

/-! ## The running sums -/

/-- The sum over the rows of a 10000 × 128 block, started from zero, read at a feature. -/
theorem colsum_apply (v : FVec Ideal S10000x128 .f32) (q : Fin 128) :
    multiReduction (F := Ideal) .add [0] S128 v 0x00000000#32 reduces_S10000x128_S128 (.inl rfl) rfl (ix1 q)
      = ∑ p : Fin 10000, v (ix2 p q) := by
  refine (Ideal.multiReduction_add_single v 0x00000000#32 reduces_S10000x128_S128 (.inl rfl) rfl (ix1 q)).trans ?_
  show ∑ k : Fin 10000, v (reduces_S10000x128_S128.lift (ix1 q) k) = ∑ p : Fin 10000, v (ix2 p q)
  refine Finset.sum_congr rfl fun k _ => congrArg v ?_
  exact funext fun a => Fin.ext (by match a with | ⟨0, _⟩ => rfl | ⟨1, _⟩ => rfl)

/-- The running column sum after a block: what it held plus the block's column sum, on every one of its rows. -/
theorem pay4_apply (x0 : Vec Ideal S10000x128 .f32) (x1 : Vec Ideal S128x128 .f32) (x2 : Vec Ideal S1x128 .f32)
    (s : Vec Ideal S8x128 .f32) (r : Fin 8) (q : Fin 128) :
    k0_pay4 (F := Ideal) x0 x1 x2 s (ix2 r q) = s (ix2 r q) + ∑ p : Fin 10000, k0_pay3 (F := Ideal) x0 x1 x2 (ix2 p q) := by
  unfold k0_pay4
  generalize k0_pay3 (F := Ideal) x0 x1 x2 = y
  show shapeCast S8x128 (addf s (broadcastTo S8x128 (shapeCast S1x128 (shapeCast S1x128
      (multiReduction (F := Ideal) .add [0] S128 y 0x00000000#32 reduces_S10000x128_S128 (.inl rfl) rfl)
      shapeCasts_S128_S1x128) shapeCasts_S1x128_S1x128) broadcasts_S1x128_S8x128)) shapeCasts_S8x128_S8x128 (ix2 r q) = _
  rw [shapeCast_self, addf_apply, broadcastTo_1b_ab_apply, shapeCast_self, shapeCast_a_1a_apply, colsum_apply]

/-- The running column sum of squares after a block. -/
theorem pay5_apply (x0 : Vec Ideal S10000x128 .f32) (x1 : Vec Ideal S128x128 .f32) (x2 : Vec Ideal S1x128 .f32)
    (s : Vec Ideal S8x128 .f32) (r : Fin 8) (q : Fin 128) :
    k0_pay5 (F := Ideal) x0 x1 x2 s (ix2 r q)
      = s (ix2 r q) + ∑ p : Fin 10000, k0_pay3 (F := Ideal) x0 x1 x2 (ix2 p q) * k0_pay3 (F := Ideal) x0 x1 x2 (ix2 p q) := by
  unfold k0_pay5
  generalize k0_pay3 (F := Ideal) x0 x1 x2 = y
  show shapeCast S8x128 (addf s (broadcastTo S8x128 (shapeCast S1x128 (shapeCast S1x128
      (multiReduction (F := Ideal) .add [0] S128 (mulf y y) 0x00000000#32 reduces_S10000x128_S128 (.inl rfl) rfl)
      shapeCasts_S128_S1x128) shapeCasts_S1x128_S1x128) broadcasts_S1x128_S8x128)) shapeCasts_S8x128_S8x128 (ix2 r q) = _
  rw [shapeCast_self, addf_apply, broadcastTo_1b_ab_apply, shapeCast_self, shapeCast_a_1a_apply, colsum_apply]
  rfl

/-! ## The second layer -/

/-- The second layer's input at a row and a contracted position: the first layer's entry less the mean, times the
    scale, times the reciprocal square root of the variance plus epsilon, plus the shift, clamped below at zero. -/
theorem act_apply (x0 : Vec Ideal S10000x128 .f32) (x1 x2 x3 x4 : Vec Ideal S1x128 .f32) (p : Fin 10000) (k : Fin 128) :
    maximumf
        (addf
          (mulf
            (mulf (broadcastTo S10000x128 x3 broadcasts_S1x128_S10000x128)
              (subf x0 (broadcastTo S10000x128 x1 broadcasts_S1x128_S10000x128)))
            (broadcastTo S10000x128
              (rsqrt (addf x2 (broadcast S1x128 (Scalar.ofBits (F := Ideal) .f32 0x3727C5AC#32))))
              broadcasts_S1x128_S10000x128))
          (broadcastTo S10000x128 x4 broadcasts_S1x128_S10000x128))
        (broadcast S10000x128 (Scalar.ofBits (F := Ideal) .f32 0x00000000#32)) (ix2 p k)
      = max (x3 (ix2 0 k) * (x0 (ix2 p k) - x1 (ix2 0 k)) * Ideal.rsqrt (x2 (ix2 0 k) + Cert.Spec.epsBN) + x4 (ix2 0 k)) 0 := by
  rw [maximumf_apply, addf_apply, mulf_apply, mulf_apply, subf_apply,
    broadcastTo_1b_ab_apply, broadcastTo_1b_ab_apply, broadcastTo_1b_ab_apply, broadcastTo_1b_ab_apply, broadcast_apply]
  show max (x3 (ix2 0 k) * (x0 (ix2 p k) - x1 (ix2 0 k)) * Ideal.rsqrt (x2 (ix2 0 k) + Cert.Spec.epsBN) + x4 (ix2 0 k))
      (Ideal.ofBits .f32 0x00000000#32) = _
  rw [Ideal.ofBits_zero_f32]

/-- The second layer's block at a row and a feature: `x0` the first layer's block, `x1` the mean row, `x2` the
    variance row, `x3` the scale row, `x4` the shift row, `x5` the second weight matrix, `x6` the second bias row. -/
theorem k1pay_apply (x0 : Vec Ideal S10000x128 .f32) (x1 x2 x3 x4 : Vec Ideal S1x128 .f32) (x5 : Vec Ideal S128x128 .f32)
    (x6 : Vec Ideal S1x128 .f32) (p : Fin 10000) (q : Fin 128) :
    k1_pay1 (F := Ideal) x0 x1 x2 x3 x4 x5 x6 (ix2 p q)
      = (∑ k : Fin 128,
          max (x3 (ix2 0 k) * (x0 (ix2 p k) - x1 (ix2 0 k)) * Ideal.rsqrt (x2 (ix2 0 k) + Cert.Spec.epsBN) + x4 (ix2 0 k)) 0
            * x5 (ix2 k q)) + x6 (ix2 0 q) := by
  unfold k1_pay1
  show addf (matmul dot_S10000x128_S128x128_S10000x128_1_0_0_1_n_n none
        (truncf .bf16
          (maximumf
            (addf
              (mulf
                (mulf (broadcastTo S10000x128 (shapeCast S1x128 x3 shapeCasts_S1x128_S1x128) broadcasts_S1x128_S10000x128)
                  (subf (shapeCast S10000x128 x0 shapeCasts_S10000x128_S10000x128)
                    (broadcastTo S10000x128 (shapeCast S1x128 x1 shapeCasts_S1x128_S1x128) broadcasts_S1x128_S10000x128)))
                (broadcastTo S10000x128
                  (rsqrt (addf (shapeCast S1x128 x2 shapeCasts_S1x128_S1x128)
                    (broadcast S1x128 (Scalar.ofBits (F := Ideal) .f32 0x3727C5AC#32))))
                  broadcasts_S1x128_S10000x128))
              (broadcastTo S10000x128 (shapeCast S1x128 x4 shapeCasts_S1x128_S1x128) broadcasts_S1x128_S10000x128))
            (broadcast S10000x128 (Scalar.ofBits (F := Ideal) .f32 0x00000000#32)))
          bitsLt_bf16_f32)
        (truncf .bf16 x5 bitsLt_bf16_f32) (constant (F := Ideal) S10000x128 .f32 0x00000000#32))
      (broadcastTo S10000x128 (shapeCast S1x128 x6 shapeCasts_S1x128_S1x128) broadcasts_S1x128_S10000x128) (ix2 p q) = _
  rw [addf_apply, matmul_zero_apply, broadcastTo_1b_ab_apply]
  simp only [shapeCast_self]
  refine congrArg (· + x6 (ix2 0 q)) (Finset.sum_congr rfl fun k _ => ?_)
  rw [truncf_apply, truncf_apply, act_apply]

end Cert.KernelIdeal.Hand

end
-- ==== Proof.KIVal0.lean ====
/-
  What the first kernel region leaves in its three output arrays, over the extended reals, as whole-array
  functions of what it found in its three input arrays.

  The ten output blocks of 10000 rows tile the 100000 rows, and block `t` is the first layer's value on rows
  `10000·t … 10000·t + 9999` of the input: the output array is the layer's value on every row. The two sum
  arrays are written once, at the last point, with the accumulators: zero, plus the ten blocks' column sums
  one after the other — the sum over all 100000 rows of the column (ten times ten thousand rows are all the
  rows), the same on each of the eight rows of the array; likewise for the squares.
-/
import proofs.«114483_j81544249081987_1_alg».proof.Proof.KIBody0
import proofs.«114483_j81544249081987_1_alg».proof.Proof.KIPay
import proofs.«114483_j81544249081987_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/- The contents of the core's buffers when the region is entered, over the extended reals: a parameter. -/
variable (V : (c : Dev nD) → (b : Ref sig .tc) → Buf (Elt Ideal) ((c : Thread nD τ).loc b))

/-- The first layer's output on all rows, from what the region finds: the input activations, the weights, the
    bias row. -/
abbrev H1 (c : Dev nD) : Cert.Spec.SN.Idx → EReal :=
  Cert.Spec.lin (V c main_v14) (V c main_arg4) (fun j => V c main_v15 (ix2 0 (j 0)))

/-- The block index of each of the six windows at each of the ten points. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The region has ten points. -/
theorem N0_eq : cfg0.N = 10 := by decide +kernel

/-- The input block at point `t` is rows `10000·t … 10000·t + 9999` of the input array. -/
theorem iblk0_0_apply (c : Dev nD) (t : Fin cfg0.N) (p : Fin 10000) (q : Fin 128) (hr : 10000 * t.val + p.val < 100000) :
    (iblk0 V c 0 t : Vec Ideal S10000x128 .f32) (ix2 p q) = V c main_v14 (ix2 ⟨10000 * t.val + p.val, hr⟩ q) := by
  obtain ⟨e0, e1, -⟩ := idx0_facts t
  unfold iblk0
  rw [View.read_apply]
  show V c main_v14 _ = _
  congr 1
  funext a
  apply Fin.ext
  match a with
  | ⟨0, _⟩ => show win0_0.index t (0 : Fin 2) * 10000 + 1 * p.val = 10000 * t.val + p.val; omega
  | ⟨1, _⟩ => show win0_0.index t (1 : Fin 2) * 128 + 1 * q.val = q.val; omega

/-- The weight window's block is the whole weight matrix, at every point. -/
theorem iblk0_1_eq (c : Dev nD) (t : Fin cfg0.N) : (iblk0 V c 1 t : Vec Ideal S128x128 .f32) = V c main_arg4 := by
  obtain ⟨-, -, e0, e1, -⟩ := idx0_facts t
  funext y
  unfold iblk0
  rw [View.read_apply]
  show V c main_arg4 _ = _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block is the whole bias row, at every point. -/
theorem iblk0_2_eq (c : Dev nD) (t : Fin cfg0.N) : (iblk0 V c 2 t : Vec Ideal S1x128 .f32) = V c main_v15 := by
  obtain ⟨-, -, -, -, e0, e1, -⟩ := idx0_facts t
  funext y
  unfold iblk0
  rw [View.read_apply]
  show V c main_v15 _ = _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Where an element of the output block at point `t` sits in the output array. -/
theorem emb0_3 (t : Fin cfg0.N) (p : Fin 10000) (q : Fin 128) (hr : 10000 * t.val + p.val < 100000) :
    (((cfg0.win 3).blk t).view.emb (ix2 p q) : S100000x128.Idx) = ix2 ⟨10000 * t.val + p.val, hr⟩ q := by
  obtain ⟨-, -, -, -, -, -, e0, e1, -⟩ := idx0_facts t
  funext a
  apply Fin.ext
  match a with
  | ⟨0, _⟩ => show win0_3.index t (0 : Fin 2) * 10000 + 1 * p.val = 10000 * t.val + p.val; omega
  | ⟨1, _⟩ => show win0_3.index t (1 : Fin 2) * 128 + 1 * q.val = q.val; omega

/-- The three input arrays as the region finds them, at their literal types. -/
abbrev arrX0 (c : Dev nD) : Vec Ideal S100000x128 .f32 := V c main_v14
abbrev arrW0 (c : Dev nD) : Vec Ideal S128x128 .f32 := V c main_arg4
abbrev arrB0 (c : Dev nD) : Vec Ideal S1x128 .f32 := V c main_v15

/-- The first layer's value on a block: the layer's value of the whole input on the block's rows. -/
theorem pay3_blk (c : Dev nD) (t : Fin cfg0.N) (p : Fin 10000) (q : Fin 128) (hr : 10000 * t.val + p.val < 100000) :
    k0_pay3 (F := Ideal) (iblk0 V c 0 t) (iblk0 V c 1 t) (iblk0 V c 2 t) (ix2 p q)
      = H1 V c (ix2 ⟨10000 * t.val + p.val, hr⟩ q) := by
  rw [pay3_apply, iblk0_1_eq, iblk0_2_eq]
  show _ = (∑ k : Fin 128, arrX0 V c (ix2 ⟨10000 * t.val + p.val, hr⟩ k) * arrW0 V c (ix2 k q)) + arrB0 V c (ix2 0 q)
  congr 1
  exact Finset.sum_congr rfl fun k _ => by rw [iblk0_0_apply V c t p k hr]

/-- A row of a block is a row of the array. -/
theorem row0_lt (t : Fin cfg0.N) (p : Fin 10000) : 10000 * t.val + p.val < 100000 := by
  have h1 : t.val < 10 := lt_of_lt_of_eq t.isLt N0_eq; have h2 := p.isLt; omega

/-- What point `t` writes back to the output array is its block of the layer's value on all rows. -/
theorem flushed0_3_eq (c : Dev nD) (t : Fin cfg0.N) :
    (dat0 (F := Ideal) V c).flushed 3 t = ((cfg0.win 3).blk t).view.read (Elt Ideal) (H1 V c) := by
  show (cfg0.win 3).cut (grid0.coords t) ((dat0 (F := Ideal) V c).after 3 t) = _
  rw [after0_3]
  funext j
  obtain ⟨p, q, rfl⟩ : ∃ (p : Fin 10000) (q : Fin 128), j = ix2 p q := ⟨j 0, j 1, eq_ix2 j⟩
  rw [View.read_apply]
  show k0_pay3 (F := Ideal) (iblk0 V c 0 t) (iblk0 V c 1 t) (iblk0 V c 2 t) (ix2 p q) = H1 V c (((cfg0.win 3).blk t).view.emb (ix2 p q))
  rw [emb0_3 t p q (row0_lt t p)]
  exact pay3_blk V c t p q (row0_lt t p)

/-- An index of the output array is in point `t`'s block iff each coordinate is in the block's range. -/
theorem mem_blk0_3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v16_0).slice (win0_3.rect t)).set ↔ _
  rw [View.set_slice_whole, Rect.mem_set_unit]
  exact Iff.rfl

/-- Ten blocks of ten thousand rows are all the rows, for any count of blocks and any block length: a sum over
    the blocks of the sums over each block's rows is the sum over all the rows. -/
theorem sum_row_blocks {M : Type} [AddCommMonoid M] (f : ℕ → M) (b : ℕ) : ∀ a : ℕ,
    ∑ i ∈ Finset.range a, ∑ p : Fin b, f (b * i + p.val) = ∑ r ∈ Finset.range (a * b), f r
  | 0 => by rw [Finset.sum_range_zero, Nat.zero_mul, Finset.sum_range_zero]
  | a + 1 => by
    rw [Finset.sum_range_succ, sum_row_blocks f b a, Nat.succ_mul, Finset.sum_range_add,
      Fin.sum_univ_eq_sum_range (fun j => f (b * a + j)) b, Nat.mul_comm a b]

/-- Column `q` of the first layer's output as a function of a row number (zero past the last row). -/
def col0At (c : Dev nD) (q : Fin 128) (n : ℕ) : EReal :=
  if h : n < 100000 then H1 V c (ix2 ⟨n, h⟩ q) else 0

/-- On a row of the array it is the layer's output there. -/
theorem col0At_row (c : Dev nD) (q : Fin 128) (r : Fin 100000) : col0At V c q r.val = H1 V c (ix2 r q) := by
  unfold col0At
  rw [dif_pos r.isLt]

/-- The first layer's value on a block, by row number. -/
theorem pay3_col (c : Dev nD) (t : Fin cfg0.N) (p : Fin 10000) (q : Fin 128) :
    k0_pay3 (F := Ideal) (iblk0 V c 0 t) (iblk0 V c 1 t) (iblk0 V c 2 t) (ix2 p q) = col0At V c q (10000 * t.val + p.val) := by
  rw [pay3_blk V c t p q (row0_lt t p)]
  unfold col0At
  rw [dif_pos (row0_lt t p)]

/-- The first accumulator after position `n`: the column sums of blocks `0 … n`, on each of its eight rows. -/
theorem acc0_fst (c : Dev nD) (q : Fin 128) : ∀ (n : ℕ) (hn : n < cfg0.N) (r : Fin 8),
    ((acc0 V c n hn).1 : Vec Ideal S8x128 .f32) (ix2 r q)
      = ∑ t' ∈ Finset.range (n + 1), ∑ p : Fin 10000, col0At V c q (10000 * t' + p.val)
  | 0, hn, r => by
    rw [acc0_zero]
    show k0_pay4 (F := Ideal) (iblk0 V c 0 ⟨0, hn⟩) (iblk0 V c 1 ⟨0, hn⟩) (iblk0 V c 2 ⟨0, hn⟩) (k0_pay1 (F := Ideal)) (ix2 r q) = _
    rw [pay4_apply, pay1_apply, zero_add, Finset.sum_range_one]
    exact Finset.sum_congr rfl fun p _ => pay3_col V c ⟨0, hn⟩ p q
  | n + 1, hn, r => by
    rw [acc0_succ]
    show k0_pay4 (F := Ideal) (iblk0 V c 0 ⟨n + 1, hn⟩) (iblk0 V c 1 ⟨n + 1, hn⟩) (iblk0 V c 2 ⟨n + 1, hn⟩) (acc0 V c n (Nat.lt_of_succ_lt hn)).1 (ix2 r q) = _
    rw [pay4_apply, acc0_fst c q n (Nat.lt_of_succ_lt hn) r, Finset.sum_range_succ _ (n + 1)]
    exact congrArg (HAdd.hAdd _) (Finset.sum_congr rfl fun p _ => pay3_col V c ⟨n + 1, hn⟩ p q)

/-- The second accumulator after position `n`: the column sums of squares of blocks `0 … n`, on each of its eight rows. -/
theorem acc0_snd (c : Dev nD) (q : Fin 128) : ∀ (n : ℕ) (hn : n < cfg0.N) (r : Fin 8),
    ((acc0 V c n hn).2 : Vec Ideal S8x128 .f32) (ix2 r q)
      = ∑ t' ∈ Finset.range (n + 1), ∑ p : Fin 10000, col0At V c q (10000 * t' + p.val) * col0At V c q (10000 * t' + p.val)
  | 0, hn, r => by
    rw [acc0_zero]
    show k0_pay5 (F := Ideal) (iblk0 V c 0 ⟨0, hn⟩) (iblk0 V c 1 ⟨0, hn⟩) (iblk0 V c 2 ⟨0, hn⟩) (k0_pay2 (F := Ideal)) (ix2 r q) = _
    rw [pay5_apply, pay2_apply, zero_add, Finset.sum_range_one]
    exact Finset.sum_congr rfl fun p _ => by rw [pay3_col V c ⟨0, hn⟩ p q]
  | n + 1, hn, r => by
    rw [acc0_succ]
    show k0_pay5 (F := Ideal) (iblk0 V c 0 ⟨n + 1, hn⟩) (iblk0 V c 1 ⟨n + 1, hn⟩) (iblk0 V c 2 ⟨n + 1, hn⟩) (acc0 V c n (Nat.lt_of_succ_lt hn)).2 (ix2 r q) = _
    rw [pay5_apply, acc0_snd c q n (Nat.lt_of_succ_lt hn) r, Finset.sum_range_succ _ (n + 1)]
    exact congrArg (HAdd.hAdd _) (Finset.sum_congr rfl fun p _ => by rw [pay3_col V c ⟨n + 1, hn⟩ p q])

/-- The ten blocks' column sums, added, are the column's sum over all rows. -/
theorem colSum_blocks (c : Dev nD) (q : Fin 128) :
    ∑ t' ∈ Finset.range 10, ∑ p : Fin 10000, col0At V c q (10000 * t' + p.val) = Cert.Spec.colSum (H1 V c) (ix1 q) := by
  rw [sum_row_blocks (col0At V c q) 10000 10, show 10 * 10000 = 100000 from rfl, ← Fin.sum_univ_eq_sum_range (col0At V c q) 100000]
  show _ = ∑ r : Fin 100000, H1 V c (ix2 r q)
  exact Finset.sum_congr rfl fun r _ => col0At_row V c q r

/-- Likewise for the squares. -/
theorem colSumSq_blocks (c : Dev nD) (q : Fin 128) :
    ∑ t' ∈ Finset.range 10, ∑ p : Fin 10000, col0At V c q (10000 * t' + p.val) * col0At V c q (10000 * t' + p.val)
      = Cert.Spec.colSumSq (H1 V c) (ix1 q) := by
  rw [sum_row_blocks (fun n => col0At V c q n * col0At V c q n) 10000 10, show 10 * 10000 = 100000 from rfl,
    ← Fin.sum_univ_eq_sum_range (fun n => col0At V c q n * col0At V c q n) 100000]
  show _ = ∑ r : Fin 100000, H1 V c (ix2 r q) * H1 V c (ix2 r q)
  exact Finset.sum_congr rfl fun r _ => by rw [col0At_row V c q r]

/-- The two sum arrays' one block is the whole array. -/
theorem emb0_4 (t : Fin cfg0.N) (r : Fin 8) (q : Fin 128) :
    (((cfg0.win 4).blk t).view.emb (ix2 r q) : S8x128.Idx) = ix2 r q := by
  obtain ⟨-, -, -, -, -, -, -, -, e0, e1, -⟩ := idx0_facts t
  funext a
  apply Fin.ext
  match a with
  | ⟨0, _⟩ => show win0_4.index t (0 : Fin 2) * 8 + 1 * r.val = r.val; omega
  | ⟨1, _⟩ => show win0_4.index t (1 : Fin 2) * 128 + 1 * q.val = q.val; omega

theorem emb0_5 (t : Fin cfg0.N) (r : Fin 8) (q : Fin 128) :
    (((cfg0.win 5).blk t).view.emb (ix2 r q) : S8x128.Idx) = ix2 r q := by
  obtain ⟨-, -, -, -, -, -, -, -, -, -, e0, e1⟩ := idx0_facts t
  funext a
  apply Fin.ext
  match a with
  | ⟨0, _⟩ => show win0_5.index t (0 : Fin 2) * 8 + 1 * r.val = r.val; omega
  | ⟨1, _⟩ => show win0_5.index t (1 : Fin 2) * 128 + 1 * q.val = q.val; omega

theorem mem_blk0_4 (t : Fin cfg0.N) (i : S8x128.Idx) : i ∈ ((cfg0.win 4).blk t).view.set := by
  obtain ⟨-, -, -, -, -, -, -, -, e0, e1, -⟩ := idx0_facts t
  show i ∈ ((View.whole main_v16_1).slice (win0_4.rect t)).set
  rw [View.set_slice_whole, Rect.mem_set_unit]
  have hi0 : (i 0).val < 8 := (i 0).isLt
  have hi1 : (i 1).val < 128 := (i 1).isLt
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

theorem mem_blk0_5 (t : Fin cfg0.N) (i : S8x128.Idx) : i ∈ ((cfg0.win 5).blk t).view.set := by
  obtain ⟨-, -, -, -, -, -, -, -, -, -, e0, e1⟩ := idx0_facts t
  show i ∈ ((View.whole main_v16_2).slice (win0_5.rect t)).set
  rw [View.set_slice_whole, Rect.mem_set_unit]
  have hi0 : (i 0).val < 8 := (i 0).isLt
  have hi1 : (i 1).val < 128 := (i 1).isLt
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-- The column sums over all rows, the same on each of the eight rows; and the column sums of squares. -/
abbrev G0_4 (c : Dev nD) : Vec Ideal S8x128 .f32 := fun i => Cert.Spec.colSum (H1 V c) (ix1 (i 1))
abbrev G0_5 (c : Dev nD) : Vec Ideal S8x128 .f32 := fun i => Cert.Spec.colSumSq (H1 V c) (ix1 (i 1))

/-- Reading the sum arrays' one block off a whole-array function gives the function; the block is not cut. -/
theorem read0_4 (t : Fin cfg0.N) (G : Vec Ideal S8x128 .f32) :
    ((cfg0.win 4).blk t).view.read (Elt Ideal) G = G := by
  funext j
  obtain ⟨r, q, rfl⟩ : ∃ (r : Fin 8) (q : Fin 128), j = ix2 r q := ⟨j 0, j 1, eq_ix2 j⟩
  rw [View.read_apply]
  show G (((cfg0.win 4).blk t).view.emb (ix2 r q)) = G (ix2 r q)
  rw [emb0_4 t r q]

theorem read0_5 (t : Fin cfg0.N) (G : Vec Ideal S8x128 .f32) :
    ((cfg0.win 5).blk t).view.read (Elt Ideal) G = G := by
  funext j
  obtain ⟨r, q, rfl⟩ : ∃ (r : Fin 8) (q : Fin 128), j = ix2 r q := ⟨j 0, j 1, eq_ix2 j⟩
  rw [View.read_apply]
  show G (((cfg0.win 5).blk t).view.emb (ix2 r q)) = G (ix2 r q)
  rw [emb0_5 t r q]

theorem cut0_4 (t : Fin cfg0.N) (X : Vec Ideal S8x128 .f32) : (cfg0.win 4).cut (grid0.coords t) X = X := rfl
theorem cut0_5 (t : Fin cfg0.N) (X : Vec Ideal S8x128 .f32) : (cfg0.win 5).cut (grid0.coords t) X = X := rfl

/-- The one point that writes the column sums back, the last, writes the sums over all rows. -/
theorem flushed0_4_eq (c : Dev nD) (t : Fin cfg0.N) (hf : (cfg0.win 4).flush t = true) :
    (dat0 (F := Ideal) V c).flushed 4 t = ((cfg0.win 4).blk t).view.read (Elt Ideal) (G0_4 V c) := by
  have h9 : t.val = 9 := by
    have h1 := (flush0_4 t).mp hf
    have h2 : t.val < 10 := lt_of_lt_of_eq t.isLt N0_eq
    omega
  rw [read0_4]
  show (cfg0.win 4).cut (grid0.coords t) ((dat0 (F := Ideal) V c).after 4 t) = _
  rw [after0_4]
  refine (cut0_4 t _).trans ?_
  funext j
  obtain ⟨r, q, rfl⟩ : ∃ (r : Fin 8) (q : Fin 128), j = ix2 r q := ⟨j 0, j 1, eq_ix2 j⟩
  refine (acc0_fst V c q t.val t.isLt r).trans ?_
  rw [h9]
  exact colSum_blocks V c q

theorem flushed0_5_eq (c : Dev nD) (t : Fin cfg0.N) (hf : (cfg0.win 5).flush t = true) :
    (dat0 (F := Ideal) V c).flushed 5 t = ((cfg0.win 5).blk t).view.read (Elt Ideal) (G0_5 V c) := by
  have h9 : t.val = 9 := by
    have h1 := (flush0_5 t).mp hf
    have h2 : t.val < 10 := lt_of_lt_of_eq t.isLt N0_eq
    omega
  rw [read0_5]
  show (cfg0.win 5).cut (grid0.coords t) ((dat0 (F := Ideal) V c).after 5 t) = _
  rw [after0_5]
  refine (cut0_5 t _).trans ?_
  funext j
  obtain ⟨r, q, rfl⟩ : ∃ (r : Fin 8) (q : Fin 128), j = ix2 r q := ⟨j 0, j 1, eq_ix2 j⟩
  refine (acc0_snd V c q t.val t.isLt r).trans ?_
  rw [h9]
  exact colSumSq_blocks V c q

/-- The last point. -/
theorem last0_lt : 9 < cfg0.N := by rw [N0_eq]; decide

/-- The output array of the first region after the run. -/
theorem arr0_3 (c : Dev nD) : (dat0 (F := Ideal) V c).arrAt 3 cfg0.N = H1 V c :=
  (dat0 (F := Ideal) V c).arrAt_eq_of_cover 3 (H1 V c) (fun t _ => flushed0_3_eq V c t) fun (i : S100000x128.Idx) => by
    have hi0 : (i 0).val < 100000 := (i 0).isLt
    have hi1 : (i 1).val < 128 := (i 1).isLt
    have ht : (i 0).val / 10000 < cfg0.N := by rw [N0_eq]; omega
    refine ⟨⟨(i 0).val / 10000, ht⟩, flush0_3 _, ?_⟩
    rw [mem_blk0_3]
    obtain ⟨-, -, -, -, -, -, e0, e1, -⟩ := idx0_facts ⟨(i 0).val / 10000, ht⟩
    have e0' : win0_3.index ⟨(i 0).val / 10000, ht⟩ (0 : Fin 2) = (i 0).val / 10000 := e0
    intro a
    match a with
    | ⟨0, _⟩ =>
      show win0_3.index ⟨(i 0).val / 10000, ht⟩ (0 : Fin 2) * 10000 ≤ (i 0).val ∧ (i 0).val < win0_3.index ⟨(i 0).val / 10000, ht⟩ (0 : Fin 2) * 10000 + 10000
      omega
    | ⟨1, _⟩ =>
      show win0_3.index ⟨(i 0).val / 10000, ht⟩ (1 : Fin 2) * 128 ≤ (i 1).val ∧ (i 1).val < win0_3.index ⟨(i 0).val / 10000, ht⟩ (1 : Fin 2) * 128 + 128
      omega

/-- The array of column sums after the run: every row holds the column sums over all 100000 rows. -/
theorem arr0_4 (c : Dev nD) :
    (dat0 (F := Ideal) V c).arrAt 4 cfg0.N = fun i => Cert.Spec.colSum (H1 V c) (ix1 (i 1)) :=
  (dat0 (F := Ideal) V c).arrAt_eq_of_cover 4 (G0_4 V c) (flushed0_4_eq V c) fun i =>
    ⟨⟨9, last0_lt⟩, (flush0_4 ⟨9, last0_lt⟩).mpr rfl, mem_blk0_4 ⟨9, last0_lt⟩ i⟩

/-- The array of column sums of squares after the run. -/
theorem arr0_5 (c : Dev nD) :
    (dat0 (F := Ideal) V c).arrAt 5 cfg0.N = fun i => Cert.Spec.colSumSq (H1 V c) (ix1 (i 1)) :=
  (dat0 (F := Ideal) V c).arrAt_eq_of_cover 5 (G0_5 V c) (flushed0_5_eq V c) fun i =>
    ⟨⟨9, last0_lt⟩, (flush0_5 ⟨9, last0_lt⟩).mpr rfl, mem_blk0_5 ⟨9, last0_lt⟩ i⟩

end Cert.KernelIdeal.Hand

end
-- ==== Proof.KIVal1.lean ====
/-
  What the second kernel region leaves in its output array, over the extended reals, as a whole-array function
  of what it found in its seven input arrays.

  The ten output blocks of 10000 rows tile the 100000 rows, and block `t` is the body's value on rows
  `10000·t … 10000·t + 9999` of the first layer's output, with the six small operands read whole at every
  point: the output array is the normalised, scaled, shifted, clamped activations times the second weight
  matrix plus the second bias, on every row.
-/
import proofs.«114483_j81544249081987_1_alg».proof.Proof.KIBody1
import proofs.«114483_j81544249081987_1_alg».proof.Proof.KIPay
import proofs.«114483_j81544249081987_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/- The contents of the core's buffers when the region is entered, over the extended reals: a parameter. -/
variable (V : (c : Dev nD) → (b : Ref sig .tc) → Buf (Elt Ideal) ((c : Thread nD τ).loc b))

/-- Where the blocks sit. The two windows over the 100000 rows are at block `t` of the rows and the one block of
    the features; the six small operands are their one whole block at every point. -/
theorem idx_facts1 : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

theorem idx_small1 : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-! ## The input blocks, read at coordinates -/

/-- Row `p` of block `t` of the first layer's output is row `10000·t + p` of the array. -/
theorem iblk1_0_apply (c : Dev nD) (t : Fin cfg1.N) (p : Fin 10000) (q : Fin 128) :
    iblk1 V c 0 t (ix2 p q) = V c main_v16_0 (ix2 ⟨10000 * t.val + p.val, by have := t.isLt; have := p.isLt; have h : cfg1.N = 10 := N_1; omega⟩ q) := by
  unfold iblk1
  rw [View.read_apply]
  show V c main_v16_0 (((cfg1.win 0).blk t).view.emb (ix2 p q)) = _
  obtain ⟨e0, e1, -, -⟩ := idx_facts1 t
  refine congrArg (V c main_v16_0) ?_
  funext a; apply Fin.ext
  match a with
  | ⟨0, _⟩ => show win1_0.index t (0 : Fin 2) * 10000 + 1 * p.val = 10000 * t.val + p.val; omega
  | ⟨1, _⟩ => show win1_0.index t (1 : Fin 2) * 128 + 1 * q.val = q.val; omega

/-- The one block of a small operand is the operand. -/
theorem iblk1_1_apply (c : Dev nD) (t : Fin cfg1.N) (p : Fin 1) (q : Fin 128) :
    iblk1 V c 1 t (ix2 p q) = V c main_v27 (ix2 p q) := by
  unfold iblk1
  rw [View.read_apply]
  show V c main_v27 (((cfg1.win 1).blk t).view.emb (ix2 p q)) = _
  obtain ⟨⟨e0, e1⟩, -⟩ := idx_small1 t
  refine congrArg (V c main_v27) ?_
  funext a; apply Fin.ext
  match a with
  | ⟨0, _⟩ => show win1_1.index t (0 : Fin 2) * 1 + 1 * p.val = p.val; omega
  | ⟨1, _⟩ => show win1_1.index t (1 : Fin 2) * 128 + 1 * q.val = q.val; omega

theorem iblk1_2_apply (c : Dev nD) (t : Fin cfg1.N) (p : Fin 1) (q : Fin 128) :
    iblk1 V c 2 t (ix2 p q) = V c main_v28 (ix2 p q) := by
  unfold iblk1
  rw [View.read_apply]
  show V c main_v28 (((cfg1.win 2).blk t).view.emb (ix2 p q)) = _
  obtain ⟨-, ⟨e0, e1⟩, -⟩ := idx_small1 t
  refine congrArg (V c main_v28) ?_
  funext a; apply Fin.ext
  match a with
  | ⟨0, _⟩ => show win1_2.index t (0 : Fin 2) * 1 + 1 * p.val = p.val; omega
  | ⟨1, _⟩ => show win1_2.index t (1 : Fin 2) * 128 + 1 * q.val = q.val; omega

theorem iblk1_3_apply (c : Dev nD) (t : Fin cfg1.N) (p : Fin 1) (q : Fin 128) :
    iblk1 V c 3 t (ix2 p q) = V c main_v29 (ix2 p q) := by
  unfold iblk1
  rw [View.read_apply]
  show V c main_v29 (((cfg1.win 3).blk t).view.emb (ix2 p q)) = _
  obtain ⟨-, -, ⟨e0, e1⟩, -⟩ := idx_small1 t
  refine congrArg (V c main_v29) ?_
  funext a; apply Fin.ext
  match a with
  | ⟨0, _⟩ => show win1_3.index t (0 : Fin 2) * 1 + 1 * p.val = p.val; omega
  | ⟨1, _⟩ => show win1_3.index t (1 : Fin 2) * 128 + 1 * q.val = q.val; omega

theorem iblk1_4_apply (c : Dev nD) (t : Fin cfg1.N) (p : Fin 1) (q : Fin 128) :
    iblk1 V c 4 t (ix2 p q) = V c main_v30 (ix2 p q) := by
  unfold iblk1
  rw [View.read_apply]
  show V c main_v30 (((cfg1.win 4).blk t).view.emb (ix2 p q)) = _
  obtain ⟨-, -, -, ⟨e0, e1⟩, -⟩ := idx_small1 t
  refine congrArg (V c main_v30) ?_
  funext a; apply Fin.ext
  match a with
  | ⟨0, _⟩ => show win1_4.index t (0 : Fin 2) * 1 + 1 * p.val = p.val; omega
  | ⟨1, _⟩ => show win1_4.index t (1 : Fin 2) * 128 + 1 * q.val = q.val; omega

theorem iblk1_5_apply (c : Dev nD) (t : Fin cfg1.N) (p : Fin 128) (q : Fin 128) :
    iblk1 V c 5 t (ix2 p q) = V c main_arg8 (ix2 p q) := by
  unfold iblk1
  rw [View.read_apply]
  show V c main_arg8 (((cfg1.win 5).blk t).view.emb (ix2 p q)) = _
  obtain ⟨-, -, -, -, ⟨e0, e1⟩, -⟩ := idx_small1 t
  refine congrArg (V c main_arg8) ?_
  funext a; apply Fin.ext
  match a with
  | ⟨0, _⟩ => show win1_5.index t (0 : Fin 2) * 128 + 1 * p.val = p.val; omega
  | ⟨1, _⟩ => show win1_5.index t (1 : Fin 2) * 128 + 1 * q.val = q.val; omega

theorem iblk1_6_apply (c : Dev nD) (t : Fin cfg1.N) (p : Fin 1) (q : Fin 128) :
    iblk1 V c 6 t (ix2 p q) = V c main_v31 (ix2 p q) := by
  unfold iblk1
  rw [View.read_apply]
  show V c main_v31 (((cfg1.win 6).blk t).view.emb (ix2 p q)) = _
  obtain ⟨-, -, -, -, -, e0, e1⟩ := idx_small1 t
  refine congrArg (V c main_v31) ?_
  funext a; apply Fin.ext
  match a with
  | ⟨0, _⟩ => show win1_6.index t (0 : Fin 2) * 1 + 1 * p.val = p.val; omega
  | ⟨1, _⟩ => show win1_6.index t (1 : Fin 2) * 128 + 1 * q.val = q.val; omega

/-! ## The output array -/

/-- What the region's output array ends holding. -/
abbrev arrG1_7 (c : Dev nD) : Cert.Spec.SN.Idx → EReal :=
  Cert.Spec.bnOut (V c main_v16_0) (fun j => V c main_v27 (ix2 0 (j 0))) (fun j => V c main_v28 (ix2 0 (j 0)))
    (fun j => V c main_v29 (ix2 0 (j 0))) (fun j => V c main_v30 (ix2 0 (j 0))) (V c main_arg8)
    (fun j => V c main_v31 (ix2 0 (j 0)))

/-- Row `p` of output block `t` is row `10000·t + p` of the output array. -/
theorem emb1_7 (t : Fin cfg1.N) (p : Fin 10000) (q : Fin 128) :
    ((cfg1.win 7).blk t).view.emb (ix2 p q)
      = ix2 ⟨10000 * t.val + p.val, by have := t.isLt; have := p.isLt; have h : cfg1.N = 10 := N_1; omega⟩ q := by
  obtain ⟨-, -, e0, e1⟩ := idx_facts1 t
  funext a; apply Fin.ext
  match a with
  | ⟨0, _⟩ => show win1_7.index t (0 : Fin 2) * 10000 + 1 * p.val = 10000 * t.val + p.val; omega
  | ⟨1, _⟩ => show win1_7.index t (1 : Fin 2) * 128 + 1 * q.val = q.val; omega

/-- What point `t` writes back is block `t` of that one array. -/
theorem flushed1_7 (c : Dev nD) (t : Fin cfg1.N) :
    (dat1 (F := Ideal) V c).flushed 7 t = ((cfg1.win 7).blk t).view.read (Elt Ideal) (arrG1_7 V c) := by
  show (cfg1.win 7).cut (grid1.coords t) ((dat1 (F := Ideal) V c).after 7 t) = _
  rw [after1_7]
  funext j
  obtain ⟨p, q, rfl⟩ : ∃ (p : Fin 10000) (q : Fin 128), j = ix2 p q := ⟨j 0, j 1, eq_ix2 j⟩
  rw [View.read_apply]
  show k1_pay1 (F := Ideal) (iblk1 V c 0 t) (iblk1 V c 1 t) (iblk1 V c 2 t) (iblk1 V c 3 t) (iblk1 V c 4 t) (iblk1 V c 5 t)
        (iblk1 V c 6 t) (ix2 p q) = arrG1_7 V c (((cfg1.win 7).blk t).view.emb (ix2 p q))
  rw [emb1_7]
  refine (k1pay_apply (iblk1 V c 0 t) (iblk1 V c 1 t) (iblk1 V c 2 t) (iblk1 V c 3 t) (iblk1 V c 4 t) (iblk1 V c 5 t)
        (iblk1 V c 6 t) p q).trans ?_
  simp only [iblk1_0_apply, iblk1_1_apply, iblk1_2_apply, iblk1_3_apply, iblk1_4_apply, iblk1_5_apply, iblk1_6_apply]
  rfl

/-- An index of the output array is in point `t`'s block iff each coordinate is in the block's range on its axis. -/
theorem mem_blk1_7 (t : Fin cfg1.N) (i : S100000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v32).slice (win1_7.rect t)).set ↔ _
  rw [View.set_slice_whole, Rect.mem_set_unit]
  exact Iff.rfl

/-- The ten blocks tile the rows: row `r` lies in the block of point `r / 10000`. -/
theorem cover1_7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by omega⟩, rfl⟩
  obtain ⟨-, -, e0, e1⟩ := idx_facts1 t
  refine ⟨t, flush1_7 t, ?_⟩
  rw [mem_blk1_7]
  intro a
  match a with
  | ⟨0, _⟩ =>
    show win1_7.index t (0 : Fin 2) * 10000 ≤ (i 0).val ∧ (i 0).val < win1_7.index t (0 : Fin 2) * 10000 + 10000
    omega
  | ⟨1, _⟩ =>
    show win1_7.index t (1 : Fin 2) * 128 ≤ (i 1).val ∧ (i 1).val < win1_7.index t (1 : Fin 2) * 128 + 128
    omega

/-- The output array of the second region after the run. -/
theorem arr1_7 (c : Dev nD) :
    (dat1 (F := Ideal) V c).arrAt 7 cfg1.N
      = Cert.Spec.bnOut (V c main_v16_0) (fun j => V c main_v27 (ix2 0 (j 0))) (fun j => V c main_v28 (ix2 0 (j 0)))
          (fun j => V c main_v29 (ix2 0 (j 0))) (fun j => V c main_v30 (ix2 0 (j 0))) (V c main_arg8)
          (fun j => V c main_v31 (ix2 0 (j 0))) := by
  exact (dat1 (F := Ideal) V c).arrAt_eq_of_cover 7 (arrG1_7 V c) (fun t _ => flushed1_7 V c t) (fun i => cover1_7 i)

end Cert.KernelIdeal.Hand

end
-- ==== Proof.KIValue.lean ====
/-
  The kernel program's result, over the extended reals, as one function of its arguments: the layer of the
  specification with the variance taken as the mean of the squares less the squared mean.

  The first region enters with the residual combine `(1 + eps) · x + ns` as its input, the first weights, and
  the first bias as a row; it leaves the first layer's output on all rows and, on every row of the two sum arrays,
  the column sums and the column sums of squares over all 100000 rows. The host operations between the regions
  divide row 0 of each by the row count and subtract the squared mean. The second region normalises with that
  mean and variance, scales, shifts, clamps at zero and applies the second linear layer.
-/
import proofs.«114483_j81544249081987_1_alg».proof.Proof.KIGlueA
import proofs.«114483_j81544249081987_1_alg».proof.Proof.KIVal0
import proofs.«114483_j81544249081987_1_alg».proof.Proof.KIVal1
import proofs.«114483_j81544249081987_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## The layout operations of the host stretches, read at coordinates -/

/-- Row 0 of a sum array, read at a feature. -/
theorem row0_apply (s : FVec Ideal S8x128 .f32) (q : Fin 128) : row0 s (ix1 q) = s (ix2 0 q) := by
  unfold row0
  rw [shapeCast_1a_a_apply _ shapeCasts_S1x128_S128 q]
  exact extractStridedSlice_apply ![0, 0] s slices_S8x128_S1x128_0_0 (ix2 0 q) (ix2 0 q) (fun a => by
    match a with
    | ⟨0, _⟩ => rfl
    | ⟨1, _⟩ => exact (Nat.zero_add _).symm)

/-- The broadcast row count is the literal at every feature. -/
theorem cNvec_apply (q : Fin 128) : cNvec (ix1 q) = Cert.Spec.cN := by
  unfold cNvec
  rw [broadcastInDim_apply _ bcast_S_S128 _ (ix1 q) ix0 (fun a => a.elim0)]
  rfl

/-- A vector recast as a row, read at a feature. -/
theorem asRow_apply (x : FVec Ideal S128 .f32) (q : Fin 128) :
    shapeCast S1x128 x shapeCasts_S128_S1x128 (ix2 0 q) = x (ix1 q) :=
  shapeCast_a_1a_apply x shapeCasts_S128_S1x128 0 q

/-! ## What the first region is entered with -/

/-- The residual combine. -/
abbrev X0 : Cert.Spec.SN.Idx → EReal :=
  Cert.Spec.h0 (A0 m c) (A3 m c (ix1 0)) (nsK (A0 m c) (A1 m c) (A2 m c))
/-- The first layer's output on all rows. -/
abbrev HH : Cert.Spec.SN.Idx → EReal := Cert.Spec.lin (X0 m c) (A4 m c) (A5 m c)

theorem v14_eq : (V1 m c main_v14 : Cert.Spec.SN.Idx → EReal) = X0 m c := by
  refine (v14_term m c).trans ?_
  funext i
  show (broadcastInDim S100000x128 ![] bcast_S_S100000x128
      (addf (constant (F := Ideal) S_ .f32 0x3F800000#32) (shapeCast S_ (A3 m c) shapeCasts_S1_S_)) i) * A0 m c i
        + nsK (A0 m c) (A1 m c) (A2 m c) i = _
  rw [broadcastInDim_apply _ bcast_S_S100000x128 _ i ix0 (fun a => a.elim0)]
  show (Ideal.ofBits .f32 0x3F800000#32 + shapeCast S_ (A3 m c) shapeCasts_S1_S_ ix0) * A0 m c i + _ = _
  rw [shapeCast_apply (A3 m c) shapeCasts_S1_S_ ix0 (ix1 0) (by first | rfl | decide)]
  rfl

theorem v15_apply (q : Fin 128) : V1 m c main_v15 (ix2 0 q) = A5 m c (ix1 q) := by
  rw [v15_term]
  exact asRow_apply (A5 m c) q

theorem arg4_eq : V1 m c main_arg4 = A4 m c := W1_of m c main_arg4 (by decide)

theorem H1_eq : H1 (V1 m) c = HH m c := by
  unfold H1
  have e14 := v14_eq m c
  have e4 := arg4_eq m c
  have e15 : (fun j : Cert.Spec.SV.Idx => V1 m c main_v15 (ix2 0 (j 0))) = A5 m c :=
    funext fun j => (v15_apply m c (j 0)).trans (congrArg (A5 m c) (eq_ix1 j).symm)
  rw [e14, e4, e15]

/-! ## What the second region is entered with -/

theorem v16_0_eq : V3 m c main_v16_0 = HH m c :=
  ((W3_of m c main_v16_0 (by decide)).trans (W2_arr m c 3)).trans ((arr0_3 (V1 m) c).trans (H1_eq m c))

theorem sum_row (q : Fin 128) :
    W2 m c (Proc.devRef .tc main_v16_1) (ix2 0 q) = Cert.Spec.colSum (HH m c) (ix1 q) := by
  have e : W2 m c (Proc.devRef .tc main_v16_1) = (dat0 (F := Ideal) (V1 m) c).arrAt 4 cfg0.N := W2_arr m c 4
  rw [e, arr0_4 (V1 m) c, H1_eq m c]
  rfl

theorem sumsq_row (q : Fin 128) :
    W2 m c (Proc.devRef .tc main_v16_2) (ix2 0 q) = Cert.Spec.colSumSq (HH m c) (ix1 q) := by
  have e : W2 m c (Proc.devRef .tc main_v16_2) = (dat0 (F := Ideal) (V1 m) c).arrAt 5 cfg0.N := W2_arr m c 5
  rw [e, arr0_5 (V1 m) c, H1_eq m c]
  rfl

theorem mean_at (q : Fin 128) : V3 m c main_v27 (ix2 0 q) = Cert.Spec.mean (HH m c) (ix1 q) := by
  rw [v27_term, asRow_apply]
  show Ideal.div (row0 (W2 m c (Proc.devRef .tc main_v16_1)) (ix1 q)) (cNvec (ix1 q)) = _
  rw [row0_apply, cNvec_apply, sum_row]
  rfl

theorem mean_row : (fun j : Cert.Spec.SV.Idx => V3 m c main_v27 (ix2 0 (j 0))) = Cert.Spec.mean (HH m c) := by
  funext j
  obtain ⟨q, rfl⟩ : ∃ q : Fin 128, j = ix1 q := ⟨j 0, eq_ix1 j⟩
  exact mean_at m c q

theorem var_at (q : Fin 128) : V3 m c main_v28 (ix2 0 q) = Cert.Spec.varSq (HH m c) (ix1 q) := by
  rw [v28_term, asRow_apply]
  show Ideal.div (row0 (W2 m c (Proc.devRef .tc main_v16_2)) (ix1 q)) (cNvec (ix1 q))
      - Ideal.div (row0 (W2 m c (Proc.devRef .tc main_v16_1)) (ix1 q)) (cNvec (ix1 q))
        * Ideal.div (row0 (W2 m c (Proc.devRef .tc main_v16_1)) (ix1 q)) (cNvec (ix1 q)) = _
  rw [row0_apply, row0_apply, cNvec_apply, sum_row, sumsq_row]
  rfl

theorem var_row : (fun j : Cert.Spec.SV.Idx => V3 m c main_v28 (ix2 0 (j 0))) = Cert.Spec.varSq (HH m c) := by
  funext j
  obtain ⟨q, rfl⟩ : ∃ q : Fin 128, j = ix1 q := ⟨j 0, eq_ix1 j⟩
  exact var_at m c q

/-- An argument neither host stretch writes and the first region does not stage is as launched when the second
    region is entered. -/
theorem W2_arg6 : W2 m c (Proc.devRef .tc main_arg6) = A6 m c :=
  (W2_of_ne m c main_arg6 (by decide)).trans (W1_of m c main_arg6 (by decide))
theorem W2_arg7 : W2 m c (Proc.devRef .tc main_arg7) = A7 m c :=
  (W2_of_ne m c main_arg7 (by decide)).trans (W1_of m c main_arg7 (by decide))
theorem W2_arg9 : W2 m c (Proc.devRef .tc main_arg9) = A9 m c :=
  (W2_of_ne m c main_arg9 (by decide)).trans (W1_of m c main_arg9 (by decide))
theorem arg8_eq : V3 m c main_arg8 = A8 m c :=
  (W3_of m c main_arg8 (by decide)).trans ((W2_of_ne m c main_arg8 (by decide)).trans (W1_of m c main_arg8 (by decide)))

theorem scale_row : (fun j : Cert.Spec.SV.Idx => V3 m c main_v29 (ix2 0 (j 0))) = A6 m c := by
  funext j
  obtain ⟨q, rfl⟩ : ∃ q : Fin 128, j = ix1 q := ⟨j 0, eq_ix1 j⟩
  show V3 m c main_v29 (ix2 0 q) = A6 m c (ix1 q)
  rw [v29_term, asRow_apply, W2_arg6]
theorem shift_row : (fun j : Cert.Spec.SV.Idx => V3 m c main_v30 (ix2 0 (j 0))) = A7 m c := by
  funext j
  obtain ⟨q, rfl⟩ : ∃ q : Fin 128, j = ix1 q := ⟨j 0, eq_ix1 j⟩
  show V3 m c main_v30 (ix2 0 q) = A7 m c (ix1 q)
  rw [v30_term, asRow_apply, W2_arg7]
theorem bias2_row : (fun j : Cert.Spec.SV.Idx => V3 m c main_v31 (ix2 0 (j 0))) = A9 m c := by
  funext j
  obtain ⟨q, rfl⟩ : ∃ q : Fin 128, j = ix1 q := ⟨j 0, eq_ix1 j⟩
  show V3 m c main_v31 (ix2 0 q) = A9 m c (ix1 q)
  rw [v31_term, asRow_apply, W2_arg9]

/-! ## The result -/

/-- The result array after the run is the specification's layer, with the variance as the mean of the squares
    less the squared mean, of the ten arguments as launched. -/
theorem kernel_value : (W4 m c (Proc.devRef .tc main_v32) : Cert.Spec.SN.Idx → EReal)
    = Cert.Spec.layer Cert.Spec.varSq (A0 m c) (A3 m c (ix1 0)) (nsK (A0 m c) (A1 m c) (A2 m c))
        (A4 m c) (A5 m c) (A6 m c) (A7 m c) (A8 m c) (A9 m c) := by
  refine (W4_main_v32 m c).trans ((arr1_7 (V3 m) c).trans ?_)
  rw [v16_0_eq m c, mean_row m c, var_row m c, scale_row m c, shift_row m c, arg8_eq m c, bias2_row m c]
  rfl

end Cert.KernelIdeal.Hand

end
-- ==== Proof.Algebra.lean ====
/-
  The algebra of the value argument, over the extended reals.

  The one mathematical fact the two programs' agreement rests on: for a column of REAL numbers
  `a_1 … a_N` with mean `μ = (Σ a_r) / N`, the mean of the squared deviations equals the mean of the
  squares less the squared mean,
      (1/N) Σ (a_r − μ)² = (1/N) Σ a_r² − μ².
  Expanding the square gives `Σ a_r² − 2 μ Σ a_r + N μ²`, and `Σ a_r = N μ` turns the last two terms
  into `− N μ²`. In the extended reals the identity needs the entries to be real (with an infinite
  entry the two sides are different indeterminate forms), so everything here is stated for arrays
  all of whose entries are real, and the first linear layer's output is shown to be such an array.
-/
import proofs.«114483_j81544249081987_1_alg».proof.Proof.Spec
import Mathlib.Data.EReal.Inv
import Mathlib.Algebra.BigOperators.Group.Finset.Basic
import Mathlib.Algebra.BigOperators.Ring.Finset
import Mathlib.Tactic.Ring
import Mathlib.Tactic.FieldSimp
import Mathlib.Tactic.NormNum

noncomputable section

namespace Cert.Algebra

open Idealize.ShloMosaic Idealize.ShloMosaic.ValueIdx
open Cert.Spec
open scoped BigOperators

/-- The divisor's literal denotes the real number 100000. -/
theorem cN_eq : Cert.Spec.cN = ((100000 : ℝ) : EReal) := by
  simp [Cert.Spec.cN, Ideal.ofBits, Ideal.ieee, -EReal.coe_mul]; norm_num

/-- The residual's literal one denotes the real number 1. -/
theorem one32_eq : Cert.Spec.one32 = ((1 : ℝ) : EReal) := by
  simp [Cert.Spec.one32, Ideal.ofBits, Ideal.ieee, -EReal.coe_mul]; norm_num

/-- The textbook identity for a column of `n` real numbers, with the divisor `N = n` kept as a real:
    the mean of the squares less the squared mean is the mean of the squared deviations. -/
theorem real_var {n : ℕ} (c : Fin n → ℝ) (N : ℝ) (hNn : N = n) (hN : N ≠ 0) :
    (∑ r, c r * c r) * (1 / N) - (∑ r, c r) * (1 / N) * ((∑ r, c r) * (1 / N))
      = (∑ r, (c r - (∑ r, c r) * (1 / N)) * (c r - (∑ r, c r) * (1 / N))) * (1 / N) := by
  set S := ∑ r, c r with hS
  set μ := S * (1 / N) with hμ
  have hexp : ∀ r, (c r - μ) * (c r - μ) = c r * c r - 2 * μ * c r + μ * μ := by
    intro r; ring
  have hsum : ∑ r, (c r - μ) * (c r - μ) = (∑ r, c r * c r) - 2 * μ * S + N * (μ * μ) := by
    simp only [hexp]
    rw [Finset.sum_add_distrib, Finset.sum_sub_distrib, ← Finset.mul_sum, Finset.sum_const,
      Finset.card_univ, Fintype.card_fin, nsmul_eq_mul, hNn]
  have hSμ : S = N * μ := by rw [hμ]; field_simp
  rw [hsum]
  rw [hSμ]
  field_simp
  ring

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem finite_sum {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- For an array of real entries the two variances agree, column by column: name the real entries,
    carry every sum, product and difference inside the embedding of the reals, and apply the real identity
    with `N = 100000`, the number of rows. -/
theorem varSq_eq_varDev (h : Cert.Spec.SN.Idx → EReal) (hf : Cert.Spec.Finite h) :
    Cert.Spec.varSq h = Cert.Spec.varDev h := by
  choose a ha using hf
  funext j
  have hN : (100000 : ℝ) ≠ 0 := by norm_num
  unfold Cert.Spec.varSq Cert.Spec.varDev Cert.Spec.mean Cert.Spec.colSum Cert.Spec.colSumSq
  simp only [ha, cN_eq, Ideal.div_coe hN]
  simp only [← EReal.coe_mul, ← coe_sum, ← EReal.coe_sub]
  rw [real_var (fun r => a (ix2 r (j 0))) 100000 (by norm_num) hN]

/-- The residual combine of real arrays with a real `eps` is a real array. -/
theorem finite_h0 {x ns : Cert.Spec.SN.Idx → EReal} {eps : EReal} (hx : Cert.Spec.Finite x)
    (he : ∃ r : ℝ, eps = (r : EReal)) (hn : Cert.Spec.Finite ns) :
    Cert.Spec.Finite (Cert.Spec.h0 x eps ns) := by
  intro i
  obtain ⟨e, rfl⟩ := he
  obtain ⟨xi, hxi⟩ := hx i
  obtain ⟨ni, hni⟩ := hn i
  refine ⟨(1 + e) * xi + ni, ?_⟩
  unfold Cert.Spec.h0
  rw [one32_eq, hxi, hni, EReal.coe_add, EReal.coe_mul, EReal.coe_add]

/-- A linear layer with real weights and bias sends a real array to a real array. -/
theorem finite_lin {h : Cert.Spec.SN.Idx → EReal} {W : Cert.Spec.SD.Idx → EReal}
    {b : Cert.Spec.SV.Idx → EReal} (hh : Cert.Spec.Finite h) (hW : Cert.Spec.Finite W)
    (hb : Cert.Spec.Finite b) : Cert.Spec.Finite (Cert.Spec.lin h W b) := by
  intro i
  obtain ⟨s, hs⟩ := finite_sum Finset.univ
    (fun k : Fin 128 => h (ix2 (i 0) k) * W (ix2 k (i 1)))
    (fun k _ => by
      obtain ⟨hk, hhk⟩ := hh (ix2 (i 0) k)
      obtain ⟨wk, hwk⟩ := hW (ix2 k (i 1))
      exact ⟨hk * wk, by rw [hhk, hwk, EReal.coe_mul]⟩)
  obtain ⟨bi, hbi⟩ := hb (ix1 (i 1))
  refine ⟨s + bi, ?_⟩
  unfold Cert.Spec.lin
  rw [hs, hbi, EReal.coe_add]

/-- The whole layer does not depend on which of the two variances it uses, as soon as the inputs of the
    first linear layer are real: its output is then a real array, where the two variances coincide. -/
theorem layer_varSq_eq_varDev (x : Cert.Spec.SN.Idx → EReal) (eps : EReal)
    (ns : Cert.Spec.SN.Idx → EReal) (W1 : Cert.Spec.SD.Idx → EReal) (b1 γ β : Cert.Spec.SV.Idx → EReal)
    (W2 : Cert.Spec.SD.Idx → EReal) (b2 : Cert.Spec.SV.Idx → EReal)
    (hx : Cert.Spec.Finite x) (he : ∃ r : ℝ, eps = (r : EReal)) (hn : Cert.Spec.Finite ns)
    (hW1 : Cert.Spec.Finite W1) (hb1 : Cert.Spec.Finite b1) :
    Cert.Spec.layer Cert.Spec.varSq x eps ns W1 b1 γ β W2 b2
      = Cert.Spec.layer Cert.Spec.varDev x eps ns W1 b1 γ β W2 b2 := by
  unfold Cert.Spec.layer
  rw [varSq_eq_varDev _ (finite_lin (finite_h0 hx he hn) hW1 hb1)]

end Cert.Algebra

end
-- ==== Proof.KINsFin.lean ====
/-
  The neighbour sums are real numbers when the features are: a gathered entry is an entry of the features, and an
  entry of the scatter-add into zeros is zero plus a finite sum of gathered entries.
-/
import proofs.«114483_j81544249081987_1_alg».proof.Proof.KINs
import proofs.«114483_j81544249081987_1_alg».proof.Proof.Algebra
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic

/-- A real number plus a finite sum of real numbers is a real number. -/
theorem real_add_sum {ι : Type*} (a : EReal) (S : Finset ι) (f : ι → EReal) (ha : ∃ r : ℝ, a = (r : EReal))
    (hf : ∀ j, ∃ r : ℝ, f j = (r : EReal)) : ∃ r : ℝ, a + ∑ j ∈ S, f j = (r : EReal) := by
  obtain ⟨r, hr⟩ := ha
  obtain ⟨s, hs⟩ := Cert.Algebra.finite_sum S f (fun j _ => hf j)
  exact ⟨r + s, by rw [hr, hs, EReal.coe_add]⟩

/-- An accumulating scatter of real updates into a real operand is real, whatever the shapes and the indices. -/
theorem real_hostScatterAdd {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact real_add_sum _ _ _ (hx i) hu

/-- A gathered entry is an entry of the operand. -/
theorem real_gather {s si t : Shape} (d : GatherDims s si t) (x : s.Idx → EReal) {w : Nat} (idx : IVec si w)
    (hx : ∀ i, ∃ r : ℝ, x i = (r : EReal)) (j : t.Idx) : ∃ r : ℝ, Host.gather d x idx j = (r : EReal) :=
  hx _

/-- The zero array is real. -/
theorem real_zeros (i : S100000x128.Idx) :
    ∃ r : ℝ, broadcastInDim S100000x128 ![] bcast_S_S100000x128 (constant (F := Ideal) S_ .f32 0x00000000#32) i = (r : EReal) := by
  refine ⟨0, ?_⟩
  rw [broadcastInDim_apply _ bcast_S_S100000x128 _ i ValueIdx.ix0 (fun a => a.elim0), ValueIdx.constant_apply,
    Ideal.ofBits_zero_f32, EReal.coe_zero]

/-- Sums of real feature rows are real. -/
theorem finite_nsK {x : FVec Ideal S100000x128 .f32} (hx : Cert.Spec.Finite x) (src dst : IVec S1600000 32) :
    Cert.Spec.Finite (nsK x src dst) := by
  intro i
  have e : nsK x src dst = Ideal.hostScatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))) := rfl
  rw [e]
  exact real_hostScatterAdd _ _ _ _ real_zeros (fun j => real_gather _ _ _ hx j) i

end Cert.KernelIdeal.Hand

end
-- ==== Proof.RefNs.lean ====
/-
  The two programs compute the neighbour sums by the same operations: the reference's stage is the kernel
  program's term, the two spellings differing only in the namespaces of their shape and dimension records.
-/
import proofs.«114483_j81544249081987_1_alg».proof.Proof.KINs
import proofs.«114483_j81544249081987_1_alg».proof.Proof.Gen.ReferenceIdeal.Read

noncomputable section

namespace Cert.RefNs

open Idealize.ShloMosaic

theorem refNs_eq (x0 : FVec Ideal Cert.KernelIdeal.S100000x128 .f32) (x1 x2 : IVec Cert.KernelIdeal.S1600000 32) :
    Cert.ReferenceIdeal.Read.val_main_v9 (F := Ideal) x0 x1 x2 = Cert.KernelIdeal.Hand.nsK x0 x1 x2 := by
  unfold Cert.ReferenceIdeal.Read.val_main_v9 Cert.ReferenceIdeal.Read.val_main_v7 Cert.ReferenceIdeal.Read.val_main_v8
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst Cert.KernelIdeal.Hand.nsK
  rfl

end Cert.RefNs

end
-- ==== Proof.RefValue.lean ====
/-
  The reference program computes the specification.

  Read one operation at a time, the reference is: the residual combine `h0 = (1 + eps) · x + ns` over the
  neighbour sums `ns` (kept as they are: the gather and the scatter-add are never opened); the first linear layer
  `h1 = h0 · W1 + b1`; the column means `μ = (Σ_r h1[r,·]) / N`; the column variances as the mean of the squared
  deviations `(Σ_r (h1[r,·] − μ)²) / N`; then, entry by entry, `max (γ · (h1 − μ) · rsqrt (v + ε) + β) 0`; and the
  second linear layer. Each stage below is identified with the matching definition of the specification, each over
  the earlier stage taken as an arbitrary array, and the last theorem chains them. The only literal that is
  evaluated is the zero word (the initial value of the two sums and the clamp's bound); the row count, the epsilon
  and the one stay as the words they are. No commutation is needed: the specification has the reference's operand order.
-/
import proofs.«114483_j81544249081987_1_alg».proof.Proof.Spec
import proofs.«114483_j81544249081987_1_alg».proof.Proof.Gen.ReferenceIdeal.Read

noncomputable section

namespace Cert.RefValue

open Idealize.ShloMosaic Idealize.ShloMosaic.ValueIdx
open Cert.ReferenceIdeal Cert.ReferenceIdeal.Read
open scoped BigOperators

/-- The two broadcasts of the scalar `1 + eps` read its one entry. -/
theorem idx_scalar (i : S100000x128.Idx) : idx_main_v12 (idx_main_v13 i) = ix1 (0 : Fin 1) :=
  funext fun a => Fin.ext (by match a with | ⟨0, _⟩ => rfl)

/-- The residual combine. -/
theorem v15_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) :
    val_main_v15 (F := Ideal) x0 x1 x2 x3
      = Cert.Spec.h0 x0 (x3 (ix1 0)) (val_main_v9 (F := Ideal) x0 x1 x2) := by
  funext i
  rw [val_main_v15_apply, val_main_v14_apply, val_main_v13_apply, val_main_v12_apply, val_main_v11_apply,
    val_main_v10_apply, val_main_cst_1_apply]
  simp only [Ideal.addf_def, Ideal.mulf_def, Ideal.ofBits_def]
  rw [idx_scalar]
  rfl

/-- The contraction of the first product reads row `i 0` of the left factor and column `i 1` of the right. -/
theorem lidx16 (i : S100000x128.Idx) (k : Fin 128) : lidx_main_v16 i k = ix2 (i 0) k :=
  funext fun a => Fin.ext (by match a with | ⟨0, _⟩ => rfl | ⟨1, _⟩ => rfl)
theorem ridx16 (i : S100000x128.Idx) (k : Fin 128) : ridx_main_v16 i k = ix2 k (i 1) :=
  funext fun a => Fin.ext (by match a with | ⟨0, _⟩ => rfl | ⟨1, _⟩ => rfl)
/-- A feature vector broadcast along the rows is read at the column. -/
theorem idx_b1 (i : S100000x128.Idx) : idx_main_v17 (idx_main_v18 i) = ix1 (i 1) :=
  funext fun a => Fin.ext (by match a with | ⟨0, _⟩ => rfl)

/-- The first linear layer. -/
theorem v19_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 : (⟨S128, .f32⟩ : BufTy).Contents (Elt Ideal)) :
    val_main_v19 (F := Ideal) x0 x1 x2 x3 x4 x5
      = Cert.Spec.lin (val_main_v15 (F := Ideal) x0 x1 x2 x3) x4 x5 := by
  funext i
  rw [val_main_v19_apply, val_main_v16_apply, val_main_v18_apply, val_main_v17_apply]
  generalize val_main_v15 (F := Ideal) x0 x1 x2 x3 = h
  simp only [Ideal.addf_def, lidx16, ridx16, idx_b1]
  rfl

/-- The sum over the rows reads entry `(r, j)` of its operand. -/
theorem idx_sum20 (j : S128.Idx) (r : Fin 100000) : idx_main_v20 j r = ix2 r (j 0) :=
  funext fun a => Fin.ext (by match a with | ⟨0, _⟩ => rfl | ⟨1, _⟩ => rfl)

/-- The column means. -/
theorem v22_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 : (⟨S128, .f32⟩ : BufTy).Contents (Elt Ideal)) :
    val_main_v22 (F := Ideal) x0 x1 x2 x3 x4 x5
      = Cert.Spec.mean (val_main_v19 (F := Ideal) x0 x1 x2 x3 x4 x5) := by
  funext j
  rw [val_main_v22_apply, val_main_v20_apply, val_main_v21_apply, val_main_cst_3_apply, val_main_cst_2_apply]
  generalize val_main_v19 (F := Ideal) x0 x1 x2 x3 x4 x5 = h
  simp only [Ideal.hostDivf_def, Ideal.ofBits_def, Ideal.ofBits_zero_f32, zero_add, idx_sum20]
  rfl

/-- The sum of the squared deviations reads entry `(r, j)`, and the mean broadcast there is the mean of column `j`. -/
theorem idx_sum27 (j : S128.Idx) (r : Fin 100000) : idx_main_v27 j r = ix2 r (j 0) :=
  funext fun a => Fin.ext (by match a with | ⟨0, _⟩ => rfl | ⟨1, _⟩ => rfl)
theorem idx_mean27 (j : S128.Idx) (r : Fin 100000) : idx_main_v23 (idx_main_v24 (idx_main_v27 j r)) = j :=
  funext fun a => Fin.ext (by match a with | ⟨0, _⟩ => rfl)

/-- The variance: the mean of the squared deviations from the column mean. -/
theorem v29_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 : (⟨S128, .f32⟩ : BufTy).Contents (Elt Ideal)) :
    val_main_v29 (F := Ideal) x0 x1 x2 x3 x4 x5
      = Cert.Spec.varDev (val_main_v19 (F := Ideal) x0 x1 x2 x3 x4 x5) := by
  funext j
  rw [val_main_v29_apply, val_main_v27_apply, val_main_v28_apply, val_main_cst_5_apply, val_main_cst_4_apply]
  simp only [val_main_v26_apply, val_main_v25_apply, val_main_v24_apply, val_main_v23_apply, v22_eq, idx_mean27]
  generalize val_main_v19 (F := Ideal) x0 x1 x2 x3 x4 x5 = h
  simp only [Ideal.hostDivf_def, Ideal.ofBits_def, Ideal.ofBits_zero_f32, zero_add, Ideal.mulf_def, Ideal.subf_def,
    idx_sum27]
  rfl

/-- A feature vector broadcast along the rows is read at the column: the mean, the scale, the inverse deviation, the shift, the second bias. -/
theorem idx_mu (p : Fin 100000) (k : Fin 128) : idx_main_v30 (idx_main_v31 (ix2 p k)) = ix1 k :=
  funext fun a => Fin.ext (by match a with | ⟨0, _⟩ => rfl)
theorem idx_gamma (p : Fin 100000) (k : Fin 128) : idx_main_v33 (idx_main_v34 (ix2 p k)) = ix1 k :=
  funext fun a => Fin.ext (by match a with | ⟨0, _⟩ => rfl)
theorem idx_rs (p : Fin 100000) (k : Fin 128) : idx_main_v39 (idx_main_v40 (ix2 p k)) = ix1 k :=
  funext fun a => Fin.ext (by match a with | ⟨0, _⟩ => rfl)
theorem idx_beta (p : Fin 100000) (k : Fin 128) : idx_main_v42 (idx_main_v43 (ix2 p k)) = ix1 k :=
  funext fun a => Fin.ext (by match a with | ⟨0, _⟩ => rfl)
theorem idx_b2 (p : Fin 100000) (q : Fin 128) : idx_main_v47 (idx_main_v48 (ix2 p q)) = ix1 q :=
  funext fun a => Fin.ext (by match a with | ⟨0, _⟩ => rfl)

/-- Entry `(p, k)` after the normalisation, the scale and shift, and the clamp at zero. -/
theorem v45_at (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 x6 x7 : (⟨S128, .f32⟩ : BufTy).Contents (Elt Ideal)) (p : Fin 100000) (k : Fin 128) :
    val_main_v45 (F := Ideal) x0 x1 x2 x3 x4 x5 x6 x7 (ix2 p k)
      = max (x6 (ix1 k)
            * (val_main_v19 (F := Ideal) x0 x1 x2 x3 x4 x5 (ix2 p k)
                - Cert.Spec.mean (val_main_v19 (F := Ideal) x0 x1 x2 x3 x4 x5) (ix1 k))
            * Ideal.rsqrt (Cert.Spec.varDev (val_main_v19 (F := Ideal) x0 x1 x2 x3 x4 x5) (ix1 k) + Cert.Spec.epsBN)
          + x7 (ix1 k)) 0 := by
  rw [val_main_v45_apply, val_main_v44_apply, val_main_v43_apply, val_main_v42_apply, val_main_v41_apply,
    val_main_v40_apply, val_main_v39_apply, val_main_v38_apply, val_main_v37_apply, val_main_v36_apply,
    val_main_cst_6_apply, val_main_v35_apply, val_main_v34_apply, val_main_v33_apply, val_main_v32_apply,
    val_main_v31_apply, val_main_v30_apply, val_main_call0_v0_apply, val_main_call0_cst_apply, v22_eq, v29_eq,
    idx_mu, idx_gamma, idx_rs, idx_beta]
  generalize val_main_v19 (F := Ideal) x0 x1 x2 x3 x4 x5 = h
  simp only [Ideal.addf_def, Ideal.mulf_def, Ideal.subf_def, Ideal.maximumf_def, Ideal.hostUnary_rsqrt_def,
    Ideal.ofBits_def, Ideal.ofBits_zero_f32]

/-- The contraction of the second product reads row `p` of the left factor and column `q` of the right. -/
theorem lidx46 (p : Fin 100000) (q k : Fin 128) : lidx_main_v46 (ix2 p q) k = ix2 p k :=
  funext fun a => Fin.ext (by match a with | ⟨0, _⟩ => rfl | ⟨1, _⟩ => rfl)
theorem ridx46 (p : Fin 100000) (q k : Fin 128) : ridx_main_v46 (ix2 p q) k = ix2 k q :=
  funext fun a => Fin.ext (by match a with | ⟨0, _⟩ => rfl | ⟨1, _⟩ => rfl)

/-- The normalisation, the clamp and the second linear layer, over the first layer's output. -/
theorem v49_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) :
    val_main_v49 (F := Ideal) x0 x1 x2 x3 x4 x5 x6 x7 x8 x9
      = Cert.Spec.bnOut (val_main_v19 (F := Ideal) x0 x1 x2 x3 x4 x5)
          (Cert.Spec.mean (val_main_v19 (F := Ideal) x0 x1 x2 x3 x4 x5))
          (Cert.Spec.varDev (val_main_v19 (F := Ideal) x0 x1 x2 x3 x4 x5)) x6 x7 x8 x9 := by
  funext i
  obtain ⟨p, q, rfl⟩ : ∃ (p : Fin 100000) (q : Fin 128), i = ix2 p q := ⟨i 0, i 1, eq_ix2 i⟩
  rw [val_main_v49_apply, val_main_v46_apply, val_main_v48_apply, val_main_v47_apply, idx_b2]
  simp only [lidx46, ridx46, v45_at, Ideal.addf_def]
  generalize val_main_v19 (F := Ideal) x0 x1 x2 x3 x4 x5 = h
  rfl

open Cert.ReferenceIdeal Cert.ReferenceIdeal.Read in
/-- The reference program computes the layer with the variance of the squared deviations. -/
theorem ref_eq (x0 : (⟨S100000x128, .f32⟩ : BufTy).Contents (Elt Ideal)) (x1 x2 : (⟨S1600000, .i32⟩ : BufTy).Contents (Elt Ideal)) (x3 : (⟨S1, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) :
    val_main_v49 (F := Ideal) x0 x1 x2 x3 x4 x5 x6 x7 x8 x9
      = Cert.Spec.layer Cert.Spec.varDev x0 (x3 (ValueIdx.ix1 0)) (val_main_v9 (F := Ideal) x0 x1 x2) x4 x5 x6 x7 x8 x9 := by
  unfold Cert.Spec.layer
  rw [v49_eq, v19_eq, v15_eq]

end Cert.RefValue

end
-- ==== Proof.FinPre.lean ====
/-
  The precondition makes the float inputs real numbers.

  The predicate is a conjunction of eight tests, one per float input, each saying that every
  entry's absolute value is strictly below plus infinity. Over the extended reals the absolute value
  of `a` is `max a (-a)`, and plus infinity is the top element; `max a (-a) < ⊤` rules out both the
  top and the bottom element, so `a` is the image of a real number. A conjunction over all entries
  that came out true was true at each entry, which gives the claim index by index.
-/
import proofs.«114483_j81544249081987_1_alg».proof.Pre_finite_inputs
import proofs.«114483_j81544249081987_1_alg».proof.Proof.Gen.Pre_finite_inputs
import proofs.«114483_j81544249081987_1_alg».proof.Proof.Spec
import Idealize.ShloMosaic.Lib.ReduceAll
import Idealize.ShloMosaic.PureOps.Ideal.Laws

noncomputable section

namespace Cert.FinPre

open Idealize.ShloMosaic Idealize.ShloMosaic.ValueIdx

/-- The pattern of the single-precision plus infinity denotes the top element of the extended reals. -/
theorem inf_eq_top : Ideal.ofBits .f32 0x7F800000#32 = (⊤ : EReal) := by
  simp [Ideal.ofBits, Ideal.ieee]

/-- An extended real whose absolute value `max a (-a)` lies strictly below the top element is neither
    infinity, hence a real number. -/
theorem real_of_abs_lt_top (a : EReal) (h : max a (-a) < ⊤) : ∃ r : ℝ, a = (r : EReal) := by
  rw [max_lt_iff] at h
  induction a using EReal.rec with
  | bot => exact absurd h.2 (by simp)
  | coe r => exact ⟨r, rfl⟩
  | top => exact absurd h.1 (by simp)

/-- The test on one entry: "the absolute value is below plus infinity" came out true, so the entry is real. -/
theorem real_of_test (a : EReal)
    (h : Ideal.cmp .olt (max a (-a)) (Ideal.ofBits .f32 0x7F800000#32) = 1#1) : ∃ r : ℝ, a = (r : EReal) := by
  rw [inf_eq_top] at h
  refine real_of_abs_lt_top a ?_
  by_contra hn
  simp [Ideal.cmp, hn] at h

/-- The result of a reduction over all axes has exactly one index. -/
instance : Subsingleton Cert.Pre_finite_inputs.S_.Idx := ⟨fun a b => funext fun d => d.elim0⟩

open Cert.Pre_finite_inputs in
/-- One conjunct of the predicate, at any shape: if the conjunction over all entries of
    "absolute value below plus infinity" is true, every entry is a real number. -/
theorem finite_of_all {S : Shape} {axes : List (Fin S.rank)} (x : FVec Ideal S .f32)
    (dims : Fin S_.rank → Fin S.rank) (hb : S_.BroadcastsInDim S dims) (init : IVec S_ 1)
    (hred : S.ReducesTo axes S_) (hu : 0 < S_.numel) (j : S_.Idx)
    (e : Host.reduce IntOp.andi
          (cmpf .olt (Host.absf x) (broadcastInDim S dims hb (constant S_ .f32 0x7F800000#32))) init hred hu j = 1#1) :
    Cert.Spec.Finite x := by
  intro i
  have hi := Host.reduce_andi_all _ init hred hu j e i
  exact real_of_test (x i) hi

open Cert.Pre_finite_inputs in
/-- The predicate holding at all ten arguments makes the four float inputs the value argument reads arrays of real
    numbers: the predicate's one result word is the conjunction of the eight tests, so each test came out true. -/
theorem finite_of_fn (x0 : FVec Ideal S100000x128 .f32) (x1 x2 : IVec S1600000 32) (x3 : FVec Ideal S1 .f32) (x4 : FVec Ideal S128x128 .f32) (x5 x6 x7 : FVec Ideal S128 .f32) (x8 : FVec Ideal S128x128 .f32) (x9 : FVec Ideal S128 .f32)
    (h : fn (F := Ideal) x0 x1 x2 x3 x4 x5 x6 x7 x8 x9 = fun _ => 1#1) :
    Cert.Spec.Finite x0 ∧ Cert.Spec.Finite x3 ∧ Cert.Spec.Finite x4 ∧ Cert.Spec.Finite x5 := by
  have h0 := congrFun h ix0
  dsimp only [fn, fn_part1, fn_part2, andi] at h0
  simp only [IntOp.andi_eq_one] at h0
  obtain ⟨⟨⟨⟨⟨⟨⟨e0, e3⟩, e4⟩, e5⟩, _⟩, _⟩, _⟩, _⟩ := h0
  exact ⟨finite_of_all x0 _ _ _ _ _ _ e0, finite_of_all x3 _ _ _ _ _ _ e3,
    finite_of_all x4 _ _ _ _ _ _ e4, finite_of_all x5 _ _ _ _ _ _ e5⟩

end Cert.FinPre

end
-- ==== Proof.lean ====
/-
  The certificate. A graph layer — residual combine with the neighbour sums, a linear layer, batch
  normalisation over the 100000 rows, a clamp at zero, a second linear layer — computed by a program of two kernel
  regions among host operations, against its plain reference.

  The frames. The bit-level program and its reading over the extended reals are one text, so one run, generic in
  the float instance, serves both: @main's two host stretches and two kernel regions in order, every weakly fair
  execution terminating with every unscoped buffer at a valuation folded from the launch memory; the arguments
  are read back through that fold to their launch contents. The reference is host operations only, and its run
  is read back operation by operation.

  The values. Over the extended reals the kernel program's result is the specification's layer with the variance
  taken as the mean of the squares less the squared mean (the first region accumulates the column sums and the
  column sums of squares block by block; the host divides by the row count and subtracts), and the reference's is
  the same layer with the variance as the mean of the squared deviations. The precondition makes the features,
  eps, the first weights and the first bias real numbers; the neighbour sums are then finite sums of real numbers,
  so the first layer's output is real on every row, and for a real column the two variances are equal. Every other
  step of the two programs agrees term by term (a change of float format is the identity here, a matrix product
  into a zero accumulator is the host's contraction, a sum over blocks is the sum over all rows).
-/
import proofs.«114483_j81544249081987_1_alg».proof.Defs
import proofs.«114483_j81544249081987_1_alg».proof.Proof.Gen.Kernel
import proofs.«114483_j81544249081987_1_alg».proof.Proof.Gen.Kernel.Skeleton
import proofs.«114483_j81544249081987_1_alg».proof.Proof.Gen.Kernel.Launch
import proofs.«114483_j81544249081987_1_alg».proof.Proof.Gen.Kernel.Regions
import proofs.«114483_j81544249081987_1_alg».proof.Proof.Gen.Kernel.Points
import proofs.«114483_j81544249081987_1_alg».proof.Proof.Gen.KernelIdeal
import proofs.«114483_j81544249081987_1_alg».proof.Proof.Gen.KernelIdeal.Skeleton
import proofs.«114483_j81544249081987_1_alg».proof.Proof.Gen.KernelIdeal.Launch
import proofs.«114483_j81544249081987_1_alg».proof.Proof.Gen.KernelIdeal.Regions
import proofs.«114483_j81544249081987_1_alg».proof.Proof.Gen.KernelIdeal.Points
import proofs.«114483_j81544249081987_1_alg».proof.Proof.Gen.ReferenceIdeal
import proofs.«114483_j81544249081987_1_alg».proof.Proof.Gen.ReferenceIdeal.Run
import proofs.«114483_j81544249081987_1_alg».proof.Proof.Gen.ReferenceIdeal.Read
import proofs.«114483_j81544249081987_1_alg».proof.Proof.Gen.Pre_finite_inputs
import proofs.«114483_j81544249081987_1_alg».proof.Proof.KRun
import proofs.«114483_j81544249081987_1_alg».proof.Proof.KIRun
import proofs.«114483_j81544249081987_1_alg».proof.Proof.KIValue
import proofs.«114483_j81544249081987_1_alg».proof.Proof.KINsFin
import proofs.«114483_j81544249081987_1_alg».proof.Proof.RefNs
import proofs.«114483_j81544249081987_1_alg».proof.Proof.RefValue
import proofs.«114483_j81544249081987_1_alg».proof.Proof.Algebra
import proofs.«114483_j81544249081987_1_alg».proof.Proof.FinPre
import Idealize.ShloMosaic.Adequacy
import Idealize.ShloMosaic.Init

noncomputable section

namespace Cert.Proof

open Idealize.ShloMosaic Idealize.ShloMosaic.TcCoe Idealize.SL.Sem Idealize.ShloMosaic.ValueIdx

/-- The bit-level program runs and keeps its arguments. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments, both programs run and end with the same
    result: the layer with either form of the variance, the two forms equal on a real column. -/
theorem algebraic : Cert.algebraic_KernelIdeal_ReferenceIdeal := by
  intro m ρ m' ρ' hpre hagree
  refine ⟨fun c => Cert.KernelIdeal.Hand.W4 m c (Proc.devRef .tc Cert.KernelIdeal.main_v32), ?_, ?_⟩
  · exact (θ_run Cert.KernelIdeal.defs _ _).mono (fun _ h c =>
      ⟨h c _ (Cert.KernelIdeal.Hand.mem_uc Cert.KernelIdeal.main_v32 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c),
       (h c _ (Cert.KernelIdeal.Hand.mem_uc Cert.KernelIdeal.main_arg5 (by decide))).trans (Cert.KernelIdeal.Hand.W4_main_arg5 m c),
       (h c _ (Cert.KernelIdeal.Hand.mem_uc Cert.KernelIdeal.main_arg6 (by decide))).trans (Cert.KernelIdeal.Hand.W4_main_arg6 m c),
       (h c _ (Cert.KernelIdeal.Hand.mem_uc Cert.KernelIdeal.main_arg7 (by decide))).trans (Cert.KernelIdeal.Hand.W4_main_arg7 m c),
       (h c _ (Cert.KernelIdeal.Hand.mem_uc Cert.KernelIdeal.main_arg8 (by decide))).trans (Cert.KernelIdeal.Hand.W4_main_arg8 m c),
       (h c _ (Cert.KernelIdeal.Hand.mem_uc Cert.KernelIdeal.main_arg9 (by decide))).trans (Cert.KernelIdeal.Hand.W4_main_arg9 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    obtain ⟨f0, f3, f4, f5⟩ := Cert.FinPre.finite_of_fn _ _ _ _ _ _ _ _ _ _ (hpre c)
    rw [Cert.ReferenceIdeal.Read.val_main_v49_eq, e0, e1, e2, e3, e4, e5, e6, e7, e8, e9, Cert.RefValue.ref_eq,
      Cert.RefNs.refNs_eq]
    exact ((Cert.Algebra.layer_varSq_eq_varDev _ _ _ _ _ _ _ _ _ f0 (f3 (ix1 0)) (Cert.KernelIdeal.Hand.finite_nsK f0 _ _) f4 f5).symm).trans
      (Cert.KernelIdeal.Hand.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
